-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x1600000 : Shape := ⟨2, ![2, 1600000]⟩
abbrev S1600000x16 : Shape := ⟨2, ![1600000, 16]⟩
abbrev S48x64 : Shape := ⟨2, ![48, 64]⟩
abbrev S64 : Shape := ⟨1, ![64]⟩
abbrev S64x16 : Shape := ⟨2, ![64, 16]⟩
abbrev S16 : Shape := ⟨1, ![16]⟩
abbrev S32x64 : Shape := ⟨2, ![32, 64]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S48x64 : S_.BroadcastsInDim S48x64 (![] : Fin 0 → Fin S48x64.rank)
  reducesTo_S48x64_S_d0_1 : S48x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S32x64 : S_.BroadcastsInDim S32x64 (![] : Fin 0 → Fin S32x64.rank)
  reducesTo_S32x64_S_d0_1 : S32x64.ReducesTo [0, 1] S_
  bcast_S_S2x1600000 : S_.BroadcastsInDim S2x1600000 (![] : Fin 0 → Fin S2x1600000.rank)
  reducesTo_S2x1600000_S_d0_1 : S2x1600000.ReducesTo [0, 1] S_

variable [Facts]

def fn_part3 {F : FTy → Type} [FloatOps F] (main_arg1 : IVec S2x1600000 32) (main_v48 : IVec S_ 1) (main_v50 : IVec S2x1600000 1) : IVec S_ 1 :=
  let main_c_19 : IVec S_ 32 := constantI S_ 32 50000#32
  let main_v51 : IVec S2x1600000 32 := broadcastInDim S2x1600000 ![] bcast_S_S2x1600000 main_c_19
  let main_v52 : IVec S2x1600000 1 := cmpi .slt main_arg1 main_v51
  let main_v53 : IVec S2x1600000 1 := andi main_v50 main_v52
  let main_c_20 : IVec S_ 1 := constantI S_ 1 1#1
  let main_v54 : IVec S_ 1 := (fun x v => Host.reduce IntOp.andi x v reducesTo_S2x1600000_S_d0_1 h_S_) main_v53 main_c_20
  let main_v55 : IVec S_ 1 := andi main_v48 main_v54
  main_v55

def fn_part2 {F : FTy → Type} [FloatOps F] (main_arg1 : IVec S2x1600000 32) (main_arg8 : FVec F S64 .f32) (main_arg9 : FVec F S64x16 .f32) (main_arg10 : FVec F S16 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x16 .f32 := Host.absf main_arg9
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_c_18 : IVec S_ 32 := constantI S_ 32 0#32
  let main_v49 : IVec S2x1600000 32 := broadcastInDim S2x1600000 ![] bcast_S_S2x1600000 main_c_18
  let main_v50 : IVec S2x1600000 1 := cmpi .sge main_arg1 main_v49
  fn_part3 (F := F) main_arg1 main_v48 main_v50

def fn_part1 {F : FTy → Type} [FloatOps F] (main_arg1 : IVec S2x1600000 32) (main_arg5 : FVec F S64x16 .f32) (main_arg6 : FVec F S16 .f32) (main_arg7 : FVec F S32x64 .f32) (main_arg8 : FVec F S64 .f32) (main_arg9 : FVec F S64x16 .f32) (main_arg10 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg5
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x16 .f32) (main_arg1 : IVec S2x1600000 32) (main_arg2 : FVec F S1600000x16 .f32) (main_arg3 : FVec F S48x64 .f32) (main_arg4 : FVec F S64 .f32) (main_arg5 : FVec F S64x16 .f32) (main_arg6 : FVec F S16 .f32) (main_arg7 : FVec F S32x64 .f32) (main_arg8 : FVec F S64 .f32) (main_arg9 : FVec F S64x16 .f32) (main_arg10 : FVec F S16 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S48x64 .f32 := Host.absf main_arg3
  let main_cst_2 : FVec F S_ .f32 := constant S_ .f32 0x7F800000#32
  let main_v10 : FVec F S48x64 .f32 := broadcastInDim S48x64 ![] bcast_S_S48x64 main_cst_2
  let main_v11 : IVec S48x64 1 := cmpf .olt main_v9 main_v10
  let main_c_3 : IVec S_ 1 := constantI S_ 1 1#1
  let main_v12 : IVec S_ 1 := (fun x v => Host.reduce IntOp.andi x v reducesTo_S48x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_v13 main_v16
-- ==== Kernel.lean ====
abbrev S50000x16 : Shape := ⟨2, ![50000, 16]⟩
abbrev S2x1600000 : Shape := ⟨2, ![2, 1600000]⟩
abbrev S1600000x16 : Shape := ⟨2, ![1600000, 16]⟩
abbrev S48x64 : Shape := ⟨2, ![48, 64]⟩
abbrev S64 : Shape := ⟨1, ![64]⟩
abbrev S64x16 : Shape := ⟨2, ![64, 16]⟩
abbrev S16 : Shape := ⟨1, ![16]⟩
abbrev S32x64 : Shape := ⟨2, ![32, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S16x64 : Shape := ⟨2, ![16, 64]⟩
abbrev S1x64 : Shape := ⟨2, ![1, 64]⟩
abbrev S1x16 : Shape := ⟨2, ![1, 16]⟩
abbrev S10000x16 : Shape := ⟨2, ![10000, 16]⟩
abbrev S10000x64 : Shape := ⟨2, ![10000, 64]⟩
abbrev S5000x16 : Shape := ⟨2, ![5000, 16]⟩
abbrev S5000x64 : Shape := ⟨2, ![5000, 64]⟩

abbrev nBuf : Space → Nat
  | .hbm => 76
  | .vmem => 25
  | .smem => 0
  | _ => 0

abbrev bufTy : (tb : Table) → Fin (tcTables nBuf tb) → BufTy
  | .hbm, ⟨0, _⟩ => ⟨S50000x16, .f32⟩
  | .hbm, ⟨1, _⟩ => ⟨S2x1600000, .i32⟩
  | .hbm, ⟨2, _⟩ => ⟨S1600000x16, .f32⟩
  | .hbm, ⟨3, _⟩ => ⟨S48x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S32x64, .f32⟩
  | .hbm, ⟨8, _⟩ => ⟨S64, .f32⟩
  | .hbm, ⟨9, _⟩ => ⟨S64x16, .f32⟩
  | .hbm, ⟨10, _⟩ => ⟨S16, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1, .i32⟩
  | .hbm, ⟨24, _⟩ => ⟨S_, .i32⟩
  | .hbm, ⟨25, _⟩ => ⟨S1600000x1, .i32⟩
  | .hbm, ⟨26, _⟩ => ⟨S1600000x1, .i1⟩
  | .hbm, ⟨27, _⟩ => ⟨S1x1, .i32⟩
  | .hbm, ⟨28, _⟩ => ⟨S1600000x1, .i32⟩
  | .hbm, ⟨29, _⟩ => ⟨S1600000x1, .i1⟩
  | .hbm, ⟨30, _⟩ => ⟨S1600000x1, .i1⟩
  | .hbm, ⟨31, _⟩ => ⟨S_, .i1⟩
  | .hbm, ⟨32, _⟩ => ⟨S1600000, .i1⟩
  | .hbm, ⟨33, _⟩ => ⟨S1600000x16, .f32⟩
  | .hbm, ⟨34, _⟩ => ⟨S1600000x16, .i1⟩
  | .hbm, ⟨35, _⟩ => ⟨S_, .f32⟩
  | .hbm, ⟨36, _⟩ => ⟨S1600000x16, .f32⟩
  | .hbm, ⟨37, _⟩ => ⟨S1600000x16, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1, .i32⟩
  | .hbm, ⟨47, _⟩ => ⟨S_, .i32⟩
  | .hbm, ⟨48, _⟩ => ⟨S1600000x1, .i32⟩
  | .hbm, ⟨49, _⟩ => ⟨S1600000x1, .i1⟩
  | .hbm, ⟨50, _⟩ => ⟨S1x1, .i32⟩
  | .hbm, ⟨51, _⟩ => ⟨S1600000x1, .i32⟩
  | .hbm, ⟨52, _⟩ => ⟨S1600000x1, .i1⟩
  | .hbm, ⟨53, _⟩ => ⟨S1600000x1, .i1⟩
  | .hbm, ⟨54, _⟩ => ⟨S_, .i1⟩
  | .hbm, ⟨55, _⟩ => ⟨S1600000, .i1⟩
  | .hbm, ⟨56, _⟩ => ⟨S1600000x16, .f32⟩
  | .hbm, ⟨57, _⟩ => ⟨S1600000x16, .i1⟩
  | .hbm, ⟨58, _⟩ => ⟨S_, .f32⟩
  | .hbm, ⟨59, _⟩ => ⟨S1600000x16, .f32⟩
  | .hbm, ⟨60, _⟩ => ⟨S1600000x16, .f32⟩
  | .hbm, ⟨61, _⟩ => ⟨S16x64, .f32⟩
  | .hbm, ⟨62, _⟩ => ⟨S16x64, .f32⟩
  | .hbm, ⟨63, _⟩ => ⟨S16x64, .f32⟩
  | .hbm, ⟨64, _⟩ => ⟨S1x64, .f32⟩
  | .hbm, ⟨65, _⟩ => ⟨S1x16, .f32⟩
  | .hbm, ⟨66, _⟩ => ⟨S1600000x16, .f32⟩
  | .hbm, ⟨67, _⟩ => ⟨S_, .f32⟩
  | .hbm, ⟨68, _⟩ => ⟨S50000x16, .f32⟩
  | .hbm, ⟨69, _⟩ => ⟨S1600000x1, .i32⟩
  | .hbm, ⟨70, _⟩ => ⟨S50000x16, .f32⟩
  | .hbm, ⟨71, _⟩ => ⟨S16x64, .f32⟩
  | .hbm, ⟨72, _⟩ => ⟨S16x64, .f32⟩
  | .hbm, ⟨73, _⟩ => ⟨S1x64, .f32⟩
  | .hbm, ⟨74, _⟩ => ⟨S1x16, .f32⟩
  | .hbm, ⟨75, _⟩ => ⟨S50000x16, .f32⟩
  | .local _ .vmem, ⟨0, _⟩ => ⟨S10000x16, .f32⟩
  | .local _ .vmem, ⟨1, _⟩ => ⟨S10000x16, .f32⟩
  | .local _ .vmem, ⟨2, _⟩ => ⟨S10000x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S16x64, .f32⟩
  | .local _ .vmem, ⟨7, _⟩ => ⟨S16x64, .f32⟩
  | .local _ .vmem, ⟨8, _⟩ => ⟨S16x64, .f32⟩
  | .local _ .vmem, ⟨9, _⟩ => ⟨S1x64, .f32⟩
  | .local _ .vmem, ⟨10, _⟩ => ⟨S64x16, .f32⟩
  | .local _ .vmem, ⟨11, _⟩ => ⟨S1x16, .f32⟩
  | .local _ .vmem, ⟨12, _⟩ => ⟨S10000x16, .f32⟩
  | .local _ .vmem, ⟨13, _⟩ => ⟨S10000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S16x64, .f32⟩
  | .local _ .vmem, ⟨19, _⟩ => ⟨S16x64, .f32⟩
  | .local _ .vmem, ⟨20, _⟩ => ⟨S1x64, .f32⟩
  | .local _ .vmem, ⟨21, _⟩ => ⟨S64x16, .f32⟩
  | .local _ .vmem, ⟨22, _⟩ => ⟨S1x16, .f32⟩
  | .local _ .vmem, ⟨23, _⟩ => ⟨S5000x16, .f32⟩
  | .local _ .vmem, ⟨24, _⟩ => ⟨S5000x16, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_cst : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x16 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x16_0 : S1600000.BroadcastsInDim S1600000x16 (![0] : Fin 1 → Fin S1600000x16.rank)
  bcast_S_S1600000x16 : S_.BroadcastsInDim S1600000x16 (![] : Fin 0 → Fin S1600000x16.rank)
  slices_S48x64_S16x64_0_0 : S48x64.Slices ![0, 0] S16x64
  slices_S48x64_S16x64_16_0 : S48x64.Slices ![16, 0] S16x64
  slices_S48x64_S16x64_32_0 : S48x64.Slices ![32, 0] S16x64
  shapeCasts_S64_S1x64 : S64.ShapeCasts S1x64
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  bcast_S_S50000x16 : S_.BroadcastsInDim S50000x16 (![] : Fin 0 → Fin S50000x16.rank)
  slices_S32x64_S16x64_0_0 : S32x64.Slices ![0, 0] S16x64
  slices_S32x64_S16x64_16_0 : S32x64.Slices ![16, 0] S16x64
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  broadcasts_S1x64_S5000x64 : S1x64.Broadcasts S5000x64
  broadcasts_S1x16_S5000x16 : S1x16.Broadcasts S5000x16
  gather_S50000x16_S1600000x1_S1600000x16_1_0_n_n_0_1_116_wf : GatherDims.WF S50000x16 S1600000x1 S1600000x16 [1] [0] [] [0] [] 1 ![1, 16]
  dot_S10000x16_S16x64_S10000x64_1_0_0_1_n_n_wf : DotDims.WF S10000x16 S16x64 S10000x64 [1] [0] [0] [1] [] []
  dot_S10000x64_S64x16_S10000x16_1_0_0_1_n_n_wf : DotDims.WF S10000x64 S64x16 S10000x16 [1] [0] [0] [1] [] []
  scatter_S50000x16_S1600000x1_S1600000x16_1_0_0_1_wf : ScatterDims.WF S50000x16 S1600000x1 S1600000x16 [1] [0] [0] 1
  dot_S5000x16_S16x64_S5000x64_1_0_0_1_n_n_wf : DotDims.WF S5000x16 S16x64 S5000x64 [1] [0] [0] [1] [] []
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S1600000x16.size a
  hwx0_0 : ∀ i : grid0.Coords, EltTy.bits .f32 = 32 ∨ (Rect.block (s := S1600000x16) S10000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S1600000x16.size a
  hwx0_1 : ∀ i : grid0.Coords, EltTy.bits .f32 = 32 ∨ (Rect.block (s := S1600000x16) S10000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S1600000x16.size a
  hwx0_2 : ∀ i : grid0.Coords, EltTy.bits .f32 = 32 ∨ (Rect.block (s := S1600000x16) S10000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x64.size a ≤ S16x64.size a
  hwx0_4 : ∀ i : grid0.Coords, EltTy.bits .f32 = 32 ∨ (Rect.block (s := S16x64) S16x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S16x64.size a
  hwx0_5 : ∀ i : grid0.Coords, EltTy.bits .f32 = 32 ∨ (Rect.block (s := S16x64) S16x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x16.size a ≤ S64x16.size a
  hwx0_7 : ∀ i : grid0.Coords, EltTy.bits .f32 = 32 ∨ (Rect.block (s := S64x16) S64x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x16.size a ≤ S1600000x16.size a
  hwx0_9 : ∀ i : grid0.Coords, EltTy.bits .f32 = 32 ∨ (Rect.block (s := S1600000x16) S10000x16.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S50000x16.size a
  hwx1_0 : ∀ i : grid1.Coords, EltTy.bits .f32 = 32 ∨ (Rect.block (s := S50000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S50000x16.size a
  hwx1_1 : ∀ i : grid1.Coords, EltTy.bits .f32 = 32 ∨ (Rect.block (s := S50000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64.size a ≤ S16x64.size a
  hwx1_3 : ∀ i : grid1.Coords, EltTy.bits .f32 = 32 ∨ (Rect.block (s := S16x64) S16x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x16.size a ≤ S64x16.size a
  hwx1_5 : ∀ i : grid1.Coords, EltTy.bits .f32 = 32 ∨ (Rect.block (s := S64x16) S64x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x16.size a ≤ S50000x16.size a
  hwx1_7 : ∀ i : grid1.Coords, EltTy.bits .f32 = 32 ∨ (Rect.block (s := S50000x16) S5000x16.size (cc1_transform_7 i) (hinb1_7 i)).WholeWords (EltTy.packing .f32)

variable [Facts₀]

def gather_S50000x16_S1600000x1_S1600000x16_1_0_n_n_0_1_116 : GatherDims S50000x16 S1600000x1 S1600000x16 where
  offsetDims := [1]
  collapsedSliceDims := [0]
  operandBatchingDims := []
  startIndicesBatchingDims := []
  startIndexMap := [0]
  indexVectorDim := 1
  sliceSizes := ![1, 16]
  wf := gather_S50000x16_S1600000x1_S1600000x16_1_0_n_n_0_1_116_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def scatter_S50000x16_S1600000x1_S1600000x16_1_0_0_1 : ScatterDims S50000x16 S1600000x1 S1600000x16 where
  updateWindowDims := [1]
  insertedWindowDims := [0]
  scatterDimsToOperandDims := [0]
  indexVectorDim := 1
  wf := scatter_S50000x16_S1600000x1_S1600000x16_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_v4) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S16x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S16x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S10000x16.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S16x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S5000x16.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x16 : Shape := ⟨2, ![50000, 16]⟩
abbrev S2x1600000 : Shape := ⟨2, ![2, 1600000]⟩
abbrev S1600000x16 : Shape := ⟨2, ![1600000, 16]⟩
abbrev S48x64 : Shape := ⟨2, ![48, 64]⟩
abbrev S64 : Shape := ⟨1, ![64]⟩
abbrev S64x16 : Shape := ⟨2, ![64, 16]⟩
abbrev S16 : Shape := ⟨1, ![16]⟩
abbrev S32x64 : Shape := ⟨2, ![32, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x48 : Shape := ⟨2, ![1600000, 48]⟩
abbrev S1600000x64 : Shape := ⟨2, ![1600000, 64]⟩
abbrev S1x64 : Shape := ⟨2, ![1, 64]⟩
abbrev S1x16 : Shape := ⟨2, ![1, 16]⟩
abbrev S50000x32 : Shape := ⟨2, ![50000, 32]⟩
abbrev S50000x64 : Shape := ⟨2, ![50000, 64]⟩

abbrev nBuf : Space → Nat
  | .hbm => 61
  | .vmem => 0
  | .smem => 0
  | _ => 0

abbrev bufTy : (tb : Table) → Fin (tcTables nBuf tb) → BufTy
  | .hbm, ⟨0, _⟩ => ⟨S50000x16, .f32⟩
  | .hbm, ⟨1, _⟩ => ⟨S2x1600000, .i32⟩
  | .hbm, ⟨2, _⟩ => ⟨S1600000x16, .f32⟩
  | .hbm, ⟨3, _⟩ => ⟨S48x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S32x64, .f32⟩
  | .hbm, ⟨8, _⟩ => ⟨S64, .f32⟩
  | .hbm, ⟨9, _⟩ => ⟨S64x16, .f32⟩
  | .hbm, ⟨10, _⟩ => ⟨S16, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x16, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x16, .f32⟩
  | .hbm, ⟨33, _⟩ => ⟨S1600000x48, .f32⟩
  | .hbm, ⟨34, _⟩ => ⟨S1600000x64, .f32⟩
  | .hbm, ⟨35, _⟩ => ⟨S1x64, .f32⟩
  | .hbm, ⟨36, _⟩ => ⟨S1600000x64, .f32⟩
  | .hbm, ⟨37, _⟩ => ⟨S1600000x64, .f32⟩
  | .hbm, ⟨38, _⟩ => ⟨S_, .f32⟩
  | .hbm, ⟨39, _⟩ => ⟨S1600000x64, .f32⟩
  | .hbm, ⟨40, _⟩ => ⟨S1600000x64, .f32⟩
  | .hbm, ⟨41, _⟩ => ⟨S1600000x16, .f32⟩
  | .hbm, ⟨42, _⟩ => ⟨S1x16, .f32⟩
  | .hbm, ⟨43, _⟩ => ⟨S1600000x16, .f32⟩
  | .hbm, ⟨44, _⟩ => ⟨S1600000x16, .f32⟩
  | .hbm, ⟨45, _⟩ => ⟨S_, .f32⟩
  | .hbm, ⟨46, _⟩ => ⟨S50000x16, .f32⟩
  | .hbm, ⟨47, _⟩ => ⟨S1600000x1, .i32⟩
  | .hbm, ⟨48, _⟩ => ⟨S50000x16, .f32⟩
  | .hbm, ⟨49, _⟩ => ⟨S50000x32, .f32⟩
  | .hbm, ⟨50, _⟩ => ⟨S50000x64, .f32⟩
  | .hbm, ⟨51, _⟩ => ⟨S1x64, .f32⟩
  | .hbm, ⟨52, _⟩ => ⟨S50000x64, .f32⟩
  | .hbm, ⟨53, _⟩ => ⟨S50000x64, .f32⟩
  | .hbm, ⟨54, _⟩ => ⟨S_, .f32⟩
  | .hbm, ⟨55, _⟩ => ⟨S50000x64, .f32⟩
  | .hbm, ⟨56, _⟩ => ⟨S50000x64, .f32⟩
  | .hbm, ⟨57, _⟩ => ⟨S50000x16, .f32⟩
  | .hbm, ⟨58, _⟩ => ⟨S1x16, .f32⟩
  | .hbm, ⟨59, _⟩ => ⟨S50000x16, .f32⟩
  | .hbm, ⟨60, _⟩ => ⟨S50000x16, .f32⟩
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x16_S1600000x16_S1600000x16_S1600000x48_d1 : Shape.Concatenates [S1600000x16, S1600000x16, S1600000x16] S1600000x48 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S16_S1x16_1 : S16.BroadcastsInDim S1x16 (![1] : Fin 1 → Fin S1x16.rank)
  bcast_S1x16_S1600000x16_0_1 : S1x16.BroadcastsInDim S1600000x16 (![0, 1] : Fin 2 → Fin S1600000x16.rank)
  bcast_S_S50000x16 : S_.BroadcastsInDim S50000x16 (![] : Fin 0 → Fin S50000x16.rank)
  concatenates_S50000x16_S50000x16_S50000x32_d1 : Shape.Concatenates [S50000x16, S50000x16] S50000x32 1
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1x16_S50000x16_0_1 : S1x16.BroadcastsInDim S50000x16 (![0, 1] : Fin 2 → Fin S50000x16.rank)
  gather_S50000x16_S1600000x1_S1600000x16_1_0_n_n_0_1_116_wf : GatherDims.WF S50000x16 S1600000x1 S1600000x16 [1] [0] [] [0] [] 1 ![1, 16]
  dot_S1600000x48_S48x64_S1600000x64_1_0_0_1_n_n_wf : DotDims.WF S1600000x48 S48x64 S1600000x64 [1] [0] [0] [1] [] []
  dot_S1600000x64_S64x16_S1600000x16_1_0_0_1_n_n_wf : DotDims.WF S1600000x64 S64x16 S1600000x16 [1] [0] [0] [1] [] []
  scatter_S50000x16_S1600000x1_S1600000x16_1_0_0_1_wf : ScatterDims.WF S50000x16 S1600000x1 S1600000x16 [1] [0] [0] 1
  dot_S50000x32_S32x64_S50000x64_1_0_0_1_n_n_wf : DotDims.WF S50000x32 S32x64 S50000x64 [1] [0] [0] [1] [] []
  dot_S50000x64_S64x16_S50000x16_1_0_0_1_n_n_wf : DotDims.WF S50000x64 S64x16 S50000x16 [1] [0] [0] [1] [] []

variable [Facts₀]

def gather_S50000x16_S1600000x1_S1600000x16_1_0_n_n_0_1_116 : GatherDims S50000x16 S1600000x1 S1600000x16 where
  offsetDims := [1]
  collapsedSliceDims := [0]
  operandBatchingDims := []
  startIndicesBatchingDims := []
  startIndexMap := [0]
  indexVectorDim := 1
  sliceSizes := ![1, 16]
  wf := gather_S50000x16_S1600000x1_S1600000x16_1_0_n_n_0_1_116_wf
def dot_S1600000x48_S48x64_S1600000x64_1_0_0_1_n_n : DotDims S1600000x48 S48x64 S1600000x64 where
  lhsContracting := [1]
  rhsContracting := [0]
  lhsNonContracting := [0]
  rhsNonContracting := [1]
  lhsBatch := []
  rhsBatch := []
  wf := dot_S1600000x48_S48x64_S1600000x64_1_0_0_1_n_n_wf
def dot_S1600000x64_S64x16_S1600000x16_1_0_0_1_n_n : DotDims S1600000x64 S64x16 S1600000x16 where
  lhsContracting := [1]
  rhsContracting := [0]
  lhsNonContracting := [0]
  rhsNonContracting := [1]
  lhsBatch := []
  rhsBatch := []
  wf := dot_S1600000x64_S64x16_S1600000x16_1_0_0_1_n_n_wf
def scatter_S50000x16_S1600000x1_S1600000x16_1_0_0_1 : ScatterDims S50000x16 S1600000x1 S1600000x16 where
  updateWindowDims := [1]
  insertedWindowDims := [0]
  scatterDimsToOperandDims := [0]
  indexVectorDim := 1
  wf := scatter_S50000x16_S1600000x1_S1600000x16_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf

class Facts : Prop extends Facts₀ where

variable [Facts]
-- ==== Proof.MlpSpec.lean ====
/-
  A TWO-LAYER PERCEPTRON WITH A RECTIFIER, ROW BY ROW, OVER THE EXTENDED REALS.

  For an input row u (a vector of length K), a first weight matrix W1 of shape [K, 64], a bias b1, a second weight
  matrix W2 of shape [64, 16] and a bias b2, the network's output at column j is

      sum over k < 64 of  max (sum over a < K of u a * W1 (a, k)  +  b1 k, 0) * W2 (k, j)   +   b2 j.

  Two spellings of the first layer meet here. The one-matrix spelling ("dense1") multiplies the row of a
  concatenation [A | B | C] (or [A | B]) of [R, 16] arrays with the whole W1. The split spelling ("mlp3", "mlp2")
  multiplies each of A, B, C with its own 16-row band of W1 and adds the three (two) products, left to right. They
  agree because a sum over 48 = 16 + 16 + 16 (or 32 = 16 + 16) positions is the sum of the sums over the three (two)
  ranges, which uses only that addition of extended reals is commutative and associative: no distributivity, hence
  no finiteness.

  Every function here reads only row r of its [R, ·] operands to produce row r of the result, so it commutes with
  restricting all of them to a block of consecutive rows (rowBlock).
-/
import Idealize.ShloMosaic.Lib.ValueIdx
import Idealize.ShloMosaic.Lib.Pipeline.Value
import Idealize.ShloMosaic.PureOps.Ideal.Laws

noncomputable section

open scoped BigOperators

namespace Cert.Mlp

open Idealize.ShloMosaic Idealize.ShloMosaic.ValueIdx

/-- An [R, C] array of extended reals. -/
abbrev A2 (R C : Nat) : Type := (⟨2, ![R, C]⟩ : Shape).Idx → EReal
/-- A vector of C extended reals. -/
abbrev A1 (C : Nat) : Type := (⟨1, ![C]⟩ : Shape).Idx → EReal

/-- Row r of A times column k of w. -/
def dotRow {R K : Nat} (A : A2 R K) (w : A2 K 64) (r : Fin R) (k : Fin 64) : EReal :=
  ∑ a : Fin K, A (ix2 r a) * w (ix2 a k)

/-- The rectifier and the second layer, from the hidden pre-activations pre r k. -/
def layer2At {R : Nat} (pre : Fin R → Fin 64 → EReal) (w2 : A2 64 16) (b2 : Fin 16 → EReal) (r : Fin R) (j : Fin 16) : EReal :=
  (∑ k : Fin 64, max (pre r k) 0 * w2 (ix2 k j)) + b2 j

/-- The split spelling with three inputs, at (r, j): the biases are [1, 64] and [1, 16] rows. -/
def mlp3At {R : Nat} (A B C : A2 R 16) (wa wb wc : A2 16 64) (b1 : A2 1 64) (w2 : A2 64 16) (b2 : A2 1 16)
    (r : Fin R) (j : Fin 16) : EReal :=
  layer2At (fun r k => ((dotRow A wa r k + dotRow B wb r k) + dotRow C wc r k) + b1 (ix2 0 k)) w2 (fun j => b2 (ix2 0 j)) r j

/-- The split spelling with three inputs, as an [R, 16] array. -/
def mlp3 {R : Nat} (A B C : A2 R 16) (wa wb wc : A2 16 64) (b1 : A2 1 64) (w2 : A2 64 16) (b2 : A2 1 16) : A2 R 16 :=
  fun i => mlp3At A B C wa wb wc b1 w2 b2 ⟨(i 0).val, idx2_lt0 i⟩ ⟨(i 1).val, idx2_lt1 i⟩

theorem mlp3_apply {R : Nat} (A B C : A2 R 16) (wa wb wc : A2 16 64) (b1 : A2 1 64) (w2 : A2 64 16) (b2 : A2 1 16)
    (r : Fin R) (j : Fin 16) : mlp3 A B C wa wb wc b1 w2 b2 (ix2 r j) = mlp3At A B C wa wb wc b1 w2 b2 r j := rfl

/-- The split spelling with two inputs, at (r, j). -/
def mlp2At {R : Nat} (A B : A2 R 16) (wa wb : A2 16 64) (b1 : A2 1 64) (w2 : A2 64 16) (b2 : A2 1 16)
    (r : Fin R) (j : Fin 16) : EReal :=
  layer2At (fun r k => (dotRow A wa r k + dotRow B wb r k) + b1 (ix2 0 k)) w2 (fun j => b2 (ix2 0 j)) r j

/-- The split spelling with two inputs, as an [R, 16] array. -/
def mlp2 {R : Nat} (A B : A2 R 16) (wa wb : A2 16 64) (b1 : A2 1 64) (w2 : A2 64 16) (b2 : A2 1 16) : A2 R 16 :=
  fun i => mlp2At A B wa wb b1 w2 b2 ⟨(i 0).val, idx2_lt0 i⟩ ⟨(i 1).val, idx2_lt1 i⟩

theorem mlp2_apply {R : Nat} (A B : A2 R 16) (wa wb : A2 16 64) (b1 : A2 1 64) (w2 : A2 64 16) (b2 : A2 1 16)
    (r : Fin R) (j : Fin 16) : mlp2 A B wa wb b1 w2 b2 (ix2 r j) = mlp2At A B wa wb b1 w2 b2 r j := rfl

/-- The one-matrix spelling, at (r, j): the biases are vectors. -/
def dense1At {R K : Nat} (X : A2 R K) (W1 : A2 K 64) (b1 : A1 64) (W2 : A2 64 16) (b2 : A1 16) (r : Fin R) (j : Fin 16) : EReal :=
  layer2At (fun r k => dotRow X W1 r k + b1 (ix1 k)) W2 (fun j => b2 (ix1 j)) r j

/-- The one-matrix spelling, as an [R, 16] array. -/
def dense1 {R K : Nat} (X : A2 R K) (W1 : A2 K 64) (b1 : A1 64) (W2 : A2 64 16) (b2 : A1 16) : A2 R 16 :=
  fun i => dense1At X W1 b1 W2 b2 ⟨(i 0).val, idx2_lt0 i⟩ ⟨(i 1).val, idx2_lt1 i⟩

theorem dense1_apply {R K : Nat} (X : A2 R K) (W1 : A2 K 64) (b1 : A1 64) (W2 : A2 64 16) (b2 : A1 16)
    (r : Fin R) (j : Fin 16) : dense1 X W1 b1 W2 b2 (ix2 r j) = dense1At X W1 b1 W2 b2 r j := rfl

/-! ## Blocks of consecutive rows -/

/-- Rows t * R', …, t * R' + R' - 1 of an [R, C] array, as an [R', C] array. -/
def rowBlock {R R' C : Nat} (t : Nat) (h : (t + 1) * R' ≤ R) (X : A2 R C) : A2 R' C :=
  fun y => X (ix2 ⟨t * R' + (y 0).val, by have := idx2_lt0 y; nlinarith⟩ ⟨(y 1).val, idx2_lt1 y⟩)

theorem rowBlock_apply {R R' C : Nat} (t : Nat) (h : (t + 1) * R' ≤ R) (X : A2 R C) (r : Fin R') (j : Fin C) :
    rowBlock t h X (ix2 r j) = X (ix2 ⟨t * R' + r.val, by have := r.isLt; nlinarith⟩ j) := rfl

/-- The three-input network of row blocks is the row block of the network. -/
theorem mlp3_rowBlock {R R' : Nat} (t : Nat) (h : (t + 1) * R' ≤ R) (A B C : A2 R 16) (wa wb wc : A2 16 64) (b1 : A2 1 64)
    (w2 : A2 64 16) (b2 : A2 1 16) :
    mlp3 (rowBlock t h A) (rowBlock t h B) (rowBlock t h C) wa wb wc b1 w2 b2
      = rowBlock t h (mlp3 A B C wa wb wc b1 w2 b2) := by
  funext i
  obtain ⟨r, j, rfl⟩ : ∃ (r : Fin R') (j : Fin 16), i = ix2 r j := ⟨i 0, i 1, eq_ix2 i⟩
  rw [mlp3_apply, rowBlock_apply, mlp3_apply]
  unfold mlp3At layer2At dotRow
  simp only [rowBlock_apply]

/-- The two-input network of row blocks is the row block of the network. -/
theorem mlp2_rowBlock {R R' : Nat} (t : Nat) (h : (t + 1) * R' ≤ R) (A B : A2 R 16) (wa wb : A2 16 64) (b1 : A2 1 64)
    (w2 : A2 64 16) (b2 : A2 1 16) :
    mlp2 (rowBlock t h A) (rowBlock t h B) wa wb b1 w2 b2 = rowBlock t h (mlp2 A B wa wb b1 w2 b2) := by
  funext i
  obtain ⟨r, j, rfl⟩ : ∃ (r : Fin R') (j : Fin 16), i = ix2 r j := ⟨i 0, i 1, eq_ix2 i⟩
  rw [mlp2_apply, rowBlock_apply, mlp2_apply]
  unfold mlp2At layer2At dotRow
  simp only [rowBlock_apply]

/-! ## Reading the layout operations at an index -/

/-- A band of 16 rows of an [n, 64] matrix, cut at row o, reads at (a, k) the matrix at (o + a, k). -/
private theorem band_apply {n : Nat} (o : Nat) (W : A2 n 64)
    (h : (⟨2, ![n, 64]⟩ : Shape).Slices ![o, 0] ⟨2, ![16, 64]⟩) (a : Fin 16) (k : Fin 64) (c : Fin n)
    (hc : c.val = o + a.val) :
    extractStridedSlice (⟨2, ![16, 64]⟩ : Shape) ![o, 0] W h (ix2 a k) = W (ix2 c k) :=
  extractStridedSlice_apply _ _ _ _ _ (fun ax => by
    match ax with
    | ⟨0, _⟩ => exact hc
    | ⟨1, _⟩ => exact (Nat.zero_add _).symm)

/-- A vector viewed as a one-row matrix reads at (0, k) the vector at k. -/
private theorem biasRow_apply {n : Nat} (b : A1 n) (h : (⟨1, ![n]⟩ : Shape).ShapeCasts ⟨2, ![1, n]⟩) (k : Fin n) :
    shapeCast (⟨2, ![1, n]⟩ : Shape) b h (ix2 0 k) = b (ix1 k) :=
  shapeCast_apply b h (ix2 0 k) (ix1 k) (by
    rw [Shape.rowMajor_val_one, Shape.rowMajor_val_two]
    show k.val = 0 * _ + k.val
    omega)

/-- A sum over 48 positions is the sum over the first 16, the next 16 and the last 16. -/
private theorem sum_fin48 {M : Type*} [AddCommMonoid M] (f : Fin 48 → M) :
    ∑ c : Fin 48, f c = ((∑ a : Fin 16, f ⟨a.val, by omega⟩) + ∑ a : Fin 16, f ⟨16 + a.val, by omega⟩)
      + ∑ a : Fin 16, f ⟨32 + a.val, by omega⟩ := by
  have h1 : ∑ c : Fin 48, f c = ∑ c : Fin 32, f ⟨c.val, by omega⟩ + ∑ a : Fin 16, f ⟨32 + a.val, by omega⟩ :=
    Fin.sum_univ_add (a := 32) (b := 16) f
  have h2 : ∑ c : Fin 32, f ⟨c.val, by omega⟩
      = ∑ a : Fin 16, f ⟨a.val, by omega⟩ + ∑ a : Fin 16, f ⟨16 + a.val, by omega⟩ :=
    Fin.sum_univ_add (a := 16) (b := 16) fun c : Fin 32 => f ⟨c.val, by omega⟩
  rw [h1, h2]

/-- A sum over 32 positions is the sum over the first 16 and the last 16. -/
private theorem sum_fin32 {M : Type*} [AddCommMonoid M] (f : Fin 32 → M) :
    ∑ c : Fin 32, f c = (∑ a : Fin 16, f ⟨a.val, by omega⟩) + ∑ a : Fin 16, f ⟨16 + a.val, by omega⟩ :=
  Fin.sum_univ_add (a := 16) (b := 16) f

/-! ## The concatenation of three [R, 16] arrays along the columns, read at (r, c) -/

section Concat3
variable {R : Nat} (A B C : A2 R 16)
  (hc : Shape.Concatenates [(⟨2, ![R, 16]⟩ : Shape), ⟨2, ![R, 16]⟩, ⟨2, ![R, 16]⟩] ⟨2, ![R, 48]⟩ 1)

/-- Columns 0–15 are A's. -/
private theorem concat3_fst (r : Fin R) (a : Fin 16) :
    concatenate (⟨2, ![R, 48]⟩ : Shape) 1 [⟨⟨2, ![R, 16]⟩, A⟩, ⟨⟨2, ![R, 16]⟩, B⟩, ⟨⟨2, ![R, 16]⟩, C⟩] hc
      (ix2 r ⟨a.val, by omega⟩) = A (ix2 r a) :=
  concatenate_apply_piece (t := ⟨2, ![R, 48]⟩) 1 [⟨⟨2, ![R, 16]⟩, A⟩, ⟨⟨2, ![R, 16]⟩, B⟩, ⟨⟨2, ![R, 16]⟩, C⟩] hc
    (ix2 r ⟨a.val, by omega⟩) 0 (by show 0 < 3; omega) ⟨2, ![R, 16]⟩ A rfl rfl 0 rfl (ix2 r a)
    (fun b hb => by
      match b with
      | ⟨0, _⟩ => rfl
      | ⟨1, _⟩ => exact absurd rfl hb)
    (by show 0 + a.val = a.val; omega)

/-- Columns 16–31 are B's. -/
private theorem concat3_snd (r : Fin R) (a : Fin 16) :
    concatenate (⟨2, ![R, 48]⟩ : Shape) 1 [⟨⟨2, ![R, 16]⟩, A⟩, ⟨⟨2, ![R, 16]⟩, B⟩, ⟨⟨2, ![R, 16]⟩, C⟩] hc
      (ix2 r ⟨16 + a.val, by omega⟩) = B (ix2 r a) :=
  concatenate_apply_piece (t := ⟨2, ![R, 48]⟩) 1 [⟨⟨2, ![R, 16]⟩, A⟩, ⟨⟨2, ![R, 16]⟩, B⟩, ⟨⟨2, ![R, 16]⟩, C⟩] hc
    (ix2 r ⟨16 + a.val, by omega⟩) 1 (by show 1 < 3; omega) ⟨2, ![R, 16]⟩ B rfl rfl 16 rfl (ix2 r a)
    (fun b hb => by
      match b with
      | ⟨0, _⟩ => rfl
      | ⟨1, _⟩ => exact absurd rfl hb)
    (by show 16 + a.val = 16 + a.val; rfl)

/-- Columns 32–47 are C's. -/
private theorem concat3_trd (r : Fin R) (a : Fin 16) :
    concatenate (⟨2, ![R, 48]⟩ : Shape) 1 [⟨⟨2, ![R, 16]⟩, A⟩, ⟨⟨2, ![R, 16]⟩, B⟩, ⟨⟨2, ![R, 16]⟩, C⟩] hc
      (ix2 r ⟨32 + a.val, by omega⟩) = C (ix2 r a) :=
  concatenate_apply_piece (t := ⟨2, ![R, 48]⟩) 1 [⟨⟨2, ![R, 16]⟩, A⟩, ⟨⟨2, ![R, 16]⟩, B⟩, ⟨⟨2, ![R, 16]⟩, C⟩] hc
    (ix2 r ⟨32 + a.val, by omega⟩) 2 (by show 2 < 3; omega) ⟨2, ![R, 16]⟩ C rfl rfl 32 rfl (ix2 r a)
    (fun b hb => by
      match b with
      | ⟨0, _⟩ => rfl
      | ⟨1, _⟩ => exact absurd rfl hb)
    (by show 32 + a.val = 32 + a.val; rfl)

end Concat3

/-- Row r of [A | B | C] times column k of W1 is the sum of the three bands' products, left to right. -/
private theorem dotRow_concat3 {R : Nat} (A B C : A2 R 16) (W1 : A2 48 64)
    (hc : Shape.Concatenates [(⟨2, ![R, 16]⟩ : Shape), ⟨2, ![R, 16]⟩, ⟨2, ![R, 16]⟩] ⟨2, ![R, 48]⟩ 1)
    (h0 : (⟨2, ![48, 64]⟩ : Shape).Slices ![0, 0] ⟨2, ![16, 64]⟩)
    (h16 : (⟨2, ![48, 64]⟩ : Shape).Slices ![16, 0] ⟨2, ![16, 64]⟩)
    (h32 : (⟨2, ![48, 64]⟩ : Shape).Slices ![32, 0] ⟨2, ![16, 64]⟩) (r : Fin R) (k : Fin 64) :
    dotRow (concatenate (⟨2, ![R, 48]⟩ : Shape) 1 [⟨⟨2, ![R, 16]⟩, A⟩, ⟨⟨2, ![R, 16]⟩, B⟩, ⟨⟨2, ![R, 16]⟩, C⟩] hc) W1 r k
      = (dotRow A (extractStridedSlice (⟨2, ![16, 64]⟩ : Shape) ![0, 0] W1 h0) r k
          + dotRow B (extractStridedSlice (⟨2, ![16, 64]⟩ : Shape) ![16, 0] W1 h16) r k)
        + dotRow C (extractStridedSlice (⟨2, ![16, 64]⟩ : Shape) ![32, 0] W1 h32) r k := by
  unfold dotRow
  rw [sum_fin48]
  refine congrArg₂ (· + ·) (congrArg₂ (· + ·) ?_ ?_) ?_
  · refine Finset.sum_congr rfl fun a _ => ?_
    rw [concat3_fst, band_apply 0 W1 h0 a k ⟨a.val, by omega⟩ (by show a.val = 0 + a.val; omega)]
  · refine Finset.sum_congr rfl fun a _ => ?_
    rw [concat3_snd, band_apply 16 W1 h16 a k ⟨16 + a.val, by omega⟩ rfl]
  · refine Finset.sum_congr rfl fun a _ => ?_
    rw [concat3_trd, band_apply 32 W1 h32 a k ⟨32 + a.val, by omega⟩ rfl]

/-! ## The concatenation of two [R, 16] arrays along the columns, read at (r, c) -/

section Concat2
variable {R : Nat} (A B : A2 R 16)
  (hc : Shape.Concatenates [(⟨2, ![R, 16]⟩ : Shape), ⟨2, ![R, 16]⟩] ⟨2, ![R, 32]⟩ 1)

/-- Columns 0–15 are A's. -/
private theorem concat2_fst (r : Fin R) (a : Fin 16) :
    concatenate (⟨2, ![R, 32]⟩ : Shape) 1 [⟨⟨2, ![R, 16]⟩, A⟩, ⟨⟨2, ![R, 16]⟩, B⟩] hc
      (ix2 r ⟨a.val, by omega⟩) = A (ix2 r a) :=
  concatenate_pair_apply_left (t := ⟨2, ![R, 32]⟩) 1 A B hc (ix2 r ⟨a.val, by omega⟩) rfl (ix2 r a)
    (fun b => by
      match b with
      | ⟨0, _⟩ => rfl
      | ⟨1, _⟩ => rfl)

/-- Columns 16–31 are B's. -/
private theorem concat2_snd (r : Fin R) (a : Fin 16) :
    concatenate (⟨2, ![R, 32]⟩ : Shape) 1 [⟨⟨2, ![R, 16]⟩, A⟩, ⟨⟨2, ![R, 16]⟩, B⟩] hc
      (ix2 r ⟨16 + a.val, by omega⟩) = B (ix2 r a) :=
  concatenate_pair_apply_right (t := ⟨2, ![R, 32]⟩) 1 A B hc (ix2 r ⟨16 + a.val, by omega⟩) rfl rfl (ix2 r a)
    (fun b hb => by
      match b with
      | ⟨0, _⟩ => rfl
      | ⟨1, _⟩ => exact absurd rfl hb)
    (by show a.val + 16 = 16 + a.val; omega)

end Concat2

/-- Row r of [A | B] times column k of W1 is the sum of the two bands' products. -/
private theorem dotRow_concat2 {R : Nat} (A B : A2 R 16) (W1 : A2 32 64)
    (hc : Shape.Concatenates [(⟨2, ![R, 16]⟩ : Shape), ⟨2, ![R, 16]⟩] ⟨2, ![R, 32]⟩ 1)
    (h0 : (⟨2, ![32, 64]⟩ : Shape).Slices ![0, 0] ⟨2, ![16, 64]⟩)
    (h16 : (⟨2, ![32, 64]⟩ : Shape).Slices ![16, 0] ⟨2, ![16, 64]⟩) (r : Fin R) (k : Fin 64) :
    dotRow (concatenate (⟨2, ![R, 32]⟩ : Shape) 1 [⟨⟨2, ![R, 16]⟩, A⟩, ⟨⟨2, ![R, 16]⟩, B⟩] hc) W1 r k
      = dotRow A (extractStridedSlice (⟨2, ![16, 64]⟩ : Shape) ![0, 0] W1 h0) r k
          + dotRow B (extractStridedSlice (⟨2, ![16, 64]⟩ : Shape) ![16, 0] W1 h16) r k := by
  unfold dotRow
  rw [sum_fin32]
  refine congrArg₂ (· + ·) ?_ ?_
  · refine Finset.sum_congr rfl fun a _ => ?_
    rw [concat2_fst, band_apply 0 W1 h0 a k ⟨a.val, by omega⟩ (by show a.val = 0 + a.val; omega)]
  · refine Finset.sum_congr rfl fun a _ => ?_
    rw [concat2_snd, band_apply 16 W1 h16 a k ⟨16 + a.val, by omega⟩ rfl]

/-! ## The one-matrix spelling of a concatenation is the split spelling -/

/-- [A | B | C] times W1 is A times rows 0–15 of W1, plus B times rows 16–31, plus C times rows 32–47; the bias
    vectors are the bias rows. -/
theorem dense1_concat3 {R : Nat} (A B C : A2 R 16) (W1 : A2 48 64) (b1 : A1 64) (W2 : A2 64 16) (b2 : A1 16)
    (hc : Shape.Concatenates [(⟨2, ![R, 16]⟩ : Shape), ⟨2, ![R, 16]⟩, ⟨2, ![R, 16]⟩] ⟨2, ![R, 48]⟩ 1)
    (h0 : (⟨2, ![48, 64]⟩ : Shape).Slices ![0, 0] ⟨2, ![16, 64]⟩)
    (h16 : (⟨2, ![48, 64]⟩ : Shape).Slices ![16, 0] ⟨2, ![16, 64]⟩)
    (h32 : (⟨2, ![48, 64]⟩ : Shape).Slices ![32, 0] ⟨2, ![16, 64]⟩)
    (hb1 : (⟨1, ![64]⟩ : Shape).ShapeCasts ⟨2, ![1, 64]⟩) (hb2 : (⟨1, ![16]⟩ : Shape).ShapeCasts ⟨2, ![1, 16]⟩) :
    dense1 (concatenate (⟨2, ![R, 48]⟩ : Shape) 1 [⟨⟨2, ![R, 16]⟩, A⟩, ⟨⟨2, ![R, 16]⟩, B⟩, ⟨⟨2, ![R, 16]⟩, C⟩] hc) W1 b1 W2 b2
      = mlp3 A B C (extractStridedSlice (⟨2, ![16, 64]⟩ : Shape) ![0, 0] W1 h0)
          (extractStridedSlice (⟨2, ![16, 64]⟩ : Shape) ![16, 0] W1 h16)
          (extractStridedSlice (⟨2, ![16, 64]⟩ : Shape) ![32, 0] W1 h32)
          (shapeCast (⟨2, ![1, 64]⟩ : Shape) b1 hb1) W2 (shapeCast (⟨2, ![1, 16]⟩ : Shape) b2 hb2) := by
  funext i
  obtain ⟨r, j, rfl⟩ : ∃ (r : Fin R) (j : Fin 16), i = ix2 r j := ⟨i 0, i 1, eq_ix2 i⟩
  rw [dense1_apply, mlp3_apply]
  unfold dense1At mlp3At layer2At
  beta_reduce
  rw [biasRow_apply b2 hb2 j]
  refine congrArg (· + b2 (ix1 j)) (Finset.sum_congr rfl fun k _ => ?_)
  rw [biasRow_apply b1 hb1 k, dotRow_concat3 A B C W1 hc h0 h16 h32 r k]

/-- [A | B] times W1 is A times rows 0–15 of W1 plus B times rows 16–31. -/
theorem dense1_concat2 {R : Nat} (A B : A2 R 16) (W1 : A2 32 64) (b1 : A1 64) (W2 : A2 64 16) (b2 : A1 16)
    (hc : Shape.Concatenates [(⟨2, ![R, 16]⟩ : Shape), ⟨2, ![R, 16]⟩] ⟨2, ![R, 32]⟩ 1)
    (h0 : (⟨2, ![32, 64]⟩ : Shape).Slices ![0, 0] ⟨2, ![16, 64]⟩)
    (h16 : (⟨2, ![32, 64]⟩ : Shape).Slices ![16, 0] ⟨2, ![16, 64]⟩)
    (hb1 : (⟨1, ![64]⟩ : Shape).ShapeCasts ⟨2, ![1, 64]⟩) (hb2 : (⟨1, ![16]⟩ : Shape).ShapeCasts ⟨2, ![1, 16]⟩) :
    dense1 (concatenate (⟨2, ![R, 32]⟩ : Shape) 1 [⟨⟨2, ![R, 16]⟩, A⟩, ⟨⟨2, ![R, 16]⟩, B⟩] hc) W1 b1 W2 b2
      = mlp2 A B (extractStridedSlice (⟨2, ![16, 64]⟩ : Shape) ![0, 0] W1 h0)
          (extractStridedSlice (⟨2, ![16, 64]⟩ : Shape) ![16, 0] W1 h16)
          (shapeCast (⟨2, ![1, 64]⟩ : Shape) b1 hb1) W2 (shapeCast (⟨2, ![1, 16]⟩ : Shape) b2 hb2) := by
  funext i
  obtain ⟨r, j, rfl⟩ : ∃ (r : Fin R) (j : Fin 16), i = ix2 r j := ⟨i 0, i 1, eq_ix2 i⟩
  rw [dense1_apply, mlp2_apply]
  unfold dense1At mlp2At layer2At
  beta_reduce
  rw [biasRow_apply b2 hb2 j]
  refine congrArg (· + b2 (ix1 j)) (Finset.sum_congr rfl fun k _ => ?_)
  rw [biasRow_apply b1 hb1 k, dotRow_concat2 A B W1 hc h0 h16 r k]

end Cert.Mlp

end
-- ==== Proof.HostWalk.lean ====
/-
  WHAT THE HOST OPERATIONS LEAVE IN THE BUFFERS THE TWO KERNEL REGIONS READ, AND WHERE THE RESULTS END.

  The program is: four stretches of host operations, the edge network's kernel region, one more stretch, the node
  network's kernel region. The stretches compute, from the arguments x (nodes), the [2, E] edge list, e (edges) and the
  weights:
    * the two index vectors (row 1 of the edge list: destinations; row 0: sources), each brought into [0, N) by adding N
      to a negative entry (normIdx);
    * for each, the rows of x at those indices, with a row whose index is still outside [0, N - 1] replaced by a constant
      row (takeFill: a range test over the index column, the row gather, a select);
    * the 16-row bands of the first weight matrices and the biases as [1, 64] and [1, 16] rows;
    * between the regions: the scatter-add of the first region's result rows into a zero [N, 16] array at the raw
      destination indices.
  Each lemma here reads one buffer at a segment boundary as such a term of the launch memory m.
-/
import proofs.«401622_j17970143166937_2_alg».proof.Proof.Gen.KernelIdeal.Frame
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable {F : FTy → Type} [FloatOps F]

/-- Row 1 of the [2, E] edge list, as a vector: the destination indices. -/
def idxRow1 (x1 : IVec S2x1600000 32) : IVec S1600000 32 :=
  shapeCast S1600000 (extractStridedSlice S1x1600000 ![1, 0] x1 slices_S2x1600000_S1x1600000_1_0) shapeCasts_S1x1600000_S1600000

/-- Row 0 of the [2, E] edge list, as a vector: the source indices. -/
def idxRow0 (x1 : IVec S2x1600000 32) : IVec S1600000 32 :=
  shapeCast S1600000 (extractStridedSlice S1x1600000 ![0, 0] x1 slices_S2x1600000_S1x1600000_0_0) shapeCasts_S1x1600000_S1600000

/-- A negative index counts from the end: N = 50000 is added to it. -/
def normIdx (i : IVec S1600000 32) : IVec S1600000 32 :=
  select (cmpi .slt i (broadcastInDim S1600000 ![] bcast_S_S1600000 (constantI S_ 32 0#32)))
    (addi i (broadcastInDim S1600000 ![] bcast_S_S1600000 (constantI S_ 32 50000#32))) i

/-- An index vector as an [E, 1] column. -/
def idxCol (i : IVec S1600000 32) : IVec S1600000x1 32 := broadcastInDim S1600000x1 ![0] bcast_S1600000_S1600000x1_0 i

/-- Per row of an index column: is the index in [0, 49999]? -/
def inRange (n : IVec S1600000x1 32) : IVec S1600000 1 :=
  Host.reduce IntOp.andi
    (andi (cmpi .sge n (broadcastInDim S1600000x1 ![] bcast_S_S1600000x1 (constantI S_ 32 0#32)))
      (cmpi .sle n (broadcastInDim S1600000x1 ![0, 1] bcast_S1x1_S1600000x1_0_1
        (broadcastInDim S1x1 ![1] bcast_S1_S1x1_1 (constantI S1 32 49999#32)))))
    (constantI S_ 1 1#1) reducesTo_S1600000x1_S1600000_d1 h_S_

/-- The rows of x at the (normalised) indices, a row whose index is out of range replaced by a constant row. -/
def takeFill (x0 : FVec F S50000x16 .f32) (i : IVec S1600000 32) : FVec F S1600000x16 .f32 :=
  select (broadcastInDim S1600000x16 ![0] bcast_S1600000_S1600000x16_0 (inRange (idxCol (normIdx i))))
    (Host.gather gather_S50000x16_S1600000x1_S1600000x16_1_0_n_n_0_1_116 x0 (idxCol (normIdx i)))
    (broadcastInDim S1600000x16 ![] bcast_S_S1600000x16 (constant S_ .f32 0x7FC00000#32))

variable (m : (ℓ : Loc nD τ sig) → Buf (Elt F) ℓ) (ρ : Dev nD → PrngReg)

/-- One stretch of host operations back: a buffer none of them writes holds after the stretch what it held before. -/
local macro "back " b:term : tactic => `(tactic| (
  refine Eq.trans (StableHlo.after_of_forall_not_mem (b := Proc.devRef .tc $b) _ _ (List.forall_iff_forall_mem.mp ?_)) ?_
  · simp only [hostOps0, hostOps0_1, hostOps0_2, hostOps0_3, hostOps1, List.Forall,
      StableHlo.TRef.nullary, StableHlo.TRef.unary, StableHlo.TRef.binary, StableHlo.TRef.ternary, StableHlo.TRef.of,
      StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## What one stretch writes, over any contents before it

Each stretch is a literal list of operations. Its result buffer holds the operations' functions composed and applied to the
contents of the buffers the stretch reads from outside itself; these lemmas say which composition, for contents `V` of
any kind before the stretch. -/

section Stretches
omit m ρ
variable (V : Valuation τ sig (Elt F))

/-- The first stretch cuts the [2, E] edge list into its two rows: row 0 into `main_v1`. -/
theorem ops0_v1 : (StableHlo.after hostOps0 V (Proc.devRef .tc main_v1) : IVec S1600000 32)
    = idxRow0 (V (Proc.devRef .tc main_arg1)) := by
  after_results; rfl

/-- Row 1 into `main_v3`. -/
theorem ops0_v3 : (StableHlo.after hostOps0 V (Proc.devRef .tc main_v3) : IVec S1600000 32)
    = idxRow1 (V (Proc.devRef .tc main_arg1)) := by
  after_results; rfl

/-! Each gather stretch is read in pieces: the range test, the gathered rows, the constant row, then the two operations
that join them. The reduction inside the range test is never opened: where it stands on both sides it is named. -/

/-- Gather one: the range test of the normalised indices, per row. -/
theorem hostOps0_1_inRange : (StableHlo.after hostOps0_1 V (Proc.devRef .tc main_call0_v12) : IVec S1600000 1)
    = inRange (idxCol (normIdx (V (Proc.devRef .tc main_v3)))) := by
  after_results_simp
  simp only [StableHlo.TRef.ofBuf, StableHlo.TRef.toBuf, cast_cast, cast_eq]
  unfold inRange idxCol normIdx
  rfl

/-- Gather one: the rows of x at the normalised indices. -/
theorem hostOps0_1_rows : (StableHlo.after hostOps0_1 V (Proc.devRef .tc main_call0_v13) : FVec F S1600000x16 .f32)
    = Host.gather gather_S50000x16_S1600000x1_S1600000x16_1_0_n_n_0_1_116 (V (Proc.devRef .tc main_arg0))
        (idxCol (normIdx (V (Proc.devRef .tc main_v3)))) := by
  after_results_simp
  unfold idxCol normIdx
  rfl

/-- Gather one: the constant row. -/
theorem hostOps0_1_fill : (StableHlo.after hostOps0_1 V (Proc.devRef .tc main_call0_v15) : FVec F S1600000x16 .f32)
    = broadcastInDim S1600000x16 ![] bcast_S_S1600000x16 (constant S_ .f32 0x7FC00000#32) := by
  after_results_simp
  rfl

/-- Gather one: the range test spread over the 16 columns. The reduction is the same term on both sides: it is named,
    not opened. -/
theorem hostOps0_1_mask : (StableHlo.after hostOps0_1 V (Proc.devRef .tc main_call0_v14) : IVec S1600000x16 1)
    = broadcastInDim S1600000x16 ![0] bcast_S1600000_S1600000x16_0
        (StableHlo.after hostOps0_1 V (Proc.devRef .tc main_call0_v12) : IVec S1600000 1) := by
  after_results_simp
  generalize Host.reduce IntOp.andi _ _ reducesTo_S1600000x1_S1600000_d1 h_S_ = r
  rfl

/-- Gather one: the select of the gathered rows against the constant row. -/
theorem hostOps0_1_select : (StableHlo.after hostOps0_1 V (Proc.devRef .tc main_v4) : FVec F S1600000x16 .f32)
    = select (StableHlo.after hostOps0_1 V (Proc.devRef .tc main_call0_v14) : IVec S1600000x16 1)
        (StableHlo.after hostOps0_1 V (Proc.devRef .tc main_call0_v13) : FVec F S1600000x16 .f32)
        (StableHlo.after hostOps0_1 V (Proc.devRef .tc main_call0_v15) : FVec F S1600000x16 .f32) := by
  after_results_simp
  generalize Host.reduce IntOp.andi _ _ reducesTo_S1600000x1_S1600000_d1 h_S_ = r
  generalize Host.gather gather_S50000x16_S1600000x1_S1600000x16_1_0_n_n_0_1_116 _ _ = g
  rfl

/-- Gather two: the range test of the normalised indices, per row. -/
theorem hostOps0_2_inRange : (StableHlo.after hostOps0_2 V (Proc.devRef .tc main_call1_v12) : IVec S1600000 1)
    = inRange (idxCol (normIdx (V (Proc.devRef .tc main_v1)))) := by
  after_results_simp
  simp only [StableHlo.TRef.ofBuf, StableHlo.TRef.toBuf, cast_cast, cast_eq]
  unfold inRange idxCol normIdx
  rfl

/-- Gather two: the rows of x at the normalised indices. -/
theorem hostOps0_2_rows : (StableHlo.after hostOps0_2 V (Proc.devRef .tc main_call1_v13) : FVec F S1600000x16 .f32)
    = Host.gather gather_S50000x16_S1600000x1_S1600000x16_1_0_n_n_0_1_116 (V (Proc.devRef .tc main_arg0))
        (idxCol (normIdx (V (Proc.devRef .tc main_v1)))) := by
  after_results_simp
  unfold idxCol normIdx
  rfl

/-- Gather two: the constant row. -/
theorem hostOps0_2_fill : (StableHlo.after hostOps0_2 V (Proc.devRef .tc main_call1_v15) : FVec F S1600000x16 .f32)
    = broadcastInDim S1600000x16 ![] bcast_S_S1600000x16 (constant S_ .f32 0x7FC00000#32) := by
  after_results_simp
  rfl

/-- Gather two: the range test spread over the 16 columns. The reduction is the same term on both sides: it is named,
    not opened. -/
theorem hostOps0_2_mask : (StableHlo.after hostOps0_2 V (Proc.devRef .tc main_call1_v14) : IVec S1600000x16 1)
    = broadcastInDim S1600000x16 ![0] bcast_S1600000_S1600000x16_0
        (StableHlo.after hostOps0_2 V (Proc.devRef .tc main_call1_v12) : IVec S1600000 1) := by
  after_results_simp
  generalize Host.reduce IntOp.andi _ _ reducesTo_S1600000x1_S1600000_d1 h_S_ = r
  rfl

/-- Gather two: the select of the gathered rows against the constant row. -/
theorem hostOps0_2_select : (StableHlo.after hostOps0_2 V (Proc.devRef .tc main_v5) : FVec F S1600000x16 .f32)
    = select (StableHlo.after hostOps0_2 V (Proc.devRef .tc main_call1_v14) : IVec S1600000x16 1)
        (StableHlo.after hostOps0_2 V (Proc.devRef .tc main_call1_v13) : FVec F S1600000x16 .f32)
        (StableHlo.after hostOps0_2 V (Proc.devRef .tc main_call1_v15) : FVec F S1600000x16 .f32) := by
  after_results_simp
  generalize Host.reduce IntOp.andi _ _ reducesTo_S1600000x1_S1600000_d1 h_S_ = r
  generalize Host.gather gather_S50000x16_S1600000x1_S1600000x16_1_0_n_n_0_1_116 _ _ = g
  rfl

/-- The first gather: normalise the destination indices, test their range, gather the rows of x, select. Every value
    of the stretch is read back to the two buffers it takes from outside, x and the index vector. -/
theorem ops0_1_v4 : (StableHlo.after hostOps0_1 V (Proc.devRef .tc main_v4) : FVec F S1600000x16 .f32)
    = takeFill (F := F) (V (Proc.devRef .tc main_arg0)) (V (Proc.devRef .tc main_v3)) := by
  rw [hostOps0_1_select, hostOps0_1_mask, hostOps0_1_inRange, hostOps0_1_rows, hostOps0_1_fill]
  rfl

/-- The second gather: the same operations over the source indices. -/
theorem ops0_2_v5 : (StableHlo.after hostOps0_2 V (Proc.devRef .tc main_v5) : FVec F S1600000x16 .f32)
    = takeFill (F := F) (V (Proc.devRef .tc main_arg0)) (V (Proc.devRef .tc main_v1)) := by
  rw [hostOps0_2_select, hostOps0_2_mask, hostOps0_2_inRange, hostOps0_2_rows, hostOps0_2_fill]
  rfl

/-- The fourth stretch: the three 16-row bands of the [48, 64] weight matrix, and the two biases as rows. -/
theorem ops0_3_v6 : (StableHlo.after hostOps0_3 V (Proc.devRef .tc main_v6) : FVec F S16x64 .f32)
    = extractStridedSlice S16x64 ![0, 0] (V (Proc.devRef .tc main_arg3)) slices_S48x64_S16x64_0_0 := by
  after_results

theorem ops0_3_v7 : (StableHlo.after hostOps0_3 V (Proc.devRef .tc main_v7) : FVec F S16x64 .f32)
    = extractStridedSlice S16x64 ![16, 0] (V (Proc.devRef .tc main_arg3)) slices_S48x64_S16x64_16_0 := by
  after_results

theorem ops0_3_v8 : (StableHlo.after hostOps0_3 V (Proc.devRef .tc main_v8) : FVec F S16x64 .f32)
    = extractStridedSlice S16x64 ![32, 0] (V (Proc.devRef .tc main_arg3)) slices_S48x64_S16x64_32_0 := by
  after_results

theorem ops0_3_v9 : (StableHlo.after hostOps0_3 V (Proc.devRef .tc main_v9) : FVec F S1x64 .f32)
    = shapeCast S1x64 (V (Proc.devRef .tc main_arg4)) shapeCasts_S64_S1x64 := by
  after_results; rfl

theorem ops0_3_v10 : (StableHlo.after hostOps0_3 V (Proc.devRef .tc main_v10) : FVec F S1x16 .f32)
    = shapeCast S1x16 (V (Proc.devRef .tc main_arg6)) shapeCasts_S16_S1x16 := by
  after_results; rfl

/-- The stretch between the regions: the scatter-add of `main_v11`'s rows into zeros at the column of `main_v3`'s
    indices; the two bands of the [32, 64] weight matrix; the two biases as rows. -/
theorem ops1_v14 : (StableHlo.after hostOps1 V (Proc.devRef .tc main_v14) : FVec F S50000x16 .f32)
    = Host.scatterAdd scatter_S50000x16_S1600000x1_S1600000x16_1_0_0_1
        (broadcastInDim S50000x16 ![] bcast_S_S50000x16 (constant S_ .f32 0x00000000#32))
        (idxCol (V (Proc.devRef .tc main_v3))) (V (Proc.devRef .tc main_v11)) := by
  after_results; rfl

theorem ops1_v15 : (StableHlo.after hostOps1 V (Proc.devRef .tc main_v15) : FVec F S16x64 .f32)
    = extractStridedSlice S16x64 ![0, 0] (V (Proc.devRef .tc main_arg7)) slices_S32x64_S16x64_0_0 := by
  after_results

theorem ops1_v16 : (StableHlo.after hostOps1 V (Proc.devRef .tc main_v16) : FVec F S16x64 .f32)
    = extractStridedSlice S16x64 ![16, 0] (V (Proc.devRef .tc main_arg7)) slices_S32x64_S16x64_16_0 := by
  after_results

theorem ops1_v17 : (StableHlo.after hostOps1 V (Proc.devRef .tc main_v17) : FVec F S1x64 .f32)
    = shapeCast S1x64 (V (Proc.devRef .tc main_arg8)) shapeCasts_S64_S1x64 := by
  after_results; rfl

theorem ops1_v18 : (StableHlo.after hostOps1 V (Proc.devRef .tc main_v18) : FVec F S1x16 .f32)
    = shapeCast S1x16 (V (Proc.devRef .tc main_arg10)) shapeCasts_S16_S1x16 := by
  after_results; rfl

end Stretches

/-! ## The buffers the stretches read, back to the launch

An argument is written by no operation and is no output of a region, so it holds at every boundary what it held at the
launch. The two index vectors are written by the first stretch and by nothing after it. -/

theorem W1_arg0 (c : Dev nD) : W1 m ρ c (Proc.devRef .tc main_arg0) = m ((c : Thread nD τ).loc main_arg0) := by
  back main_arg0; rfl

theorem W2_arg0 (c : Dev nD) : W2 m ρ c (Proc.devRef .tc main_arg0) = m ((c : Thread nD τ).loc main_arg0) := by
  back main_arg0; exact W1_arg0 m ρ c

theorem W1_v1 (c : Dev nD) : (W1 m ρ c (Proc.devRef .tc main_v1) : IVec S1600000 32)
    = idxRow0 (m ((c : Thread nD τ).loc main_arg1)) := ops0_v1 (W0 m ρ c)

theorem W1_v3 (c : Dev nD) : (W1 m ρ c (Proc.devRef .tc main_v3) : IVec S1600000 32)
    = idxRow1 (m ((c : Thread nD τ).loc main_arg1)) := ops0_v3 (W0 m ρ c)

theorem W2_v1 (c : Dev nD) : (W2 m ρ c (Proc.devRef .tc main_v1) : IVec S1600000 32)
    = idxRow0 (m ((c : Thread nD τ).loc main_arg1)) := by
  back main_v1; exact W1_v1 m ρ c

theorem W5_v3 (c : Dev nD) : (W5 m ρ c (Proc.devRef .tc main_v3) : IVec S1600000 32)
    = idxRow1 (m ((c : Thread nD τ).loc main_arg1)) := by
  refine (W5_of_ne m ρ c main_v3 (by decide)).trans ?_
  back main_v3; back main_v3; back main_v3; exact W1_v3 m ρ c

theorem W3_arg3 (c : Dev nD) : W3 m ρ c (Proc.devRef .tc main_arg3) = m ((c : Thread nD τ).loc main_arg3) := by
  back main_arg3; back main_arg3; back main_arg3; rfl

theorem W3_arg4 (c : Dev nD) : W3 m ρ c (Proc.devRef .tc main_arg4) = m ((c : Thread nD τ).loc main_arg4) := by
  back main_arg4; back main_arg4; back main_arg4; rfl

theorem W3_arg6 (c : Dev nD) : W3 m ρ c (Proc.devRef .tc main_arg6) = m ((c : Thread nD τ).loc main_arg6) := by
  back main_arg6; back main_arg6; back main_arg6; rfl

theorem W5_arg7 (c : Dev nD) : W5 m ρ c (Proc.devRef .tc main_arg7) = m ((c : Thread nD τ).loc main_arg7) := by
  refine (W5_of_ne m ρ c main_arg7 (by decide)).trans ?_
  back main_arg7; back main_arg7; back main_arg7; back main_arg7; rfl

theorem W5_arg8 (c : Dev nD) : W5 m ρ c (Proc.devRef .tc main_arg8) = m ((c : Thread nD τ).loc main_arg8) := by
  refine (W5_of_ne m ρ c main_arg8 (by decide)).trans ?_
  back main_arg8; back main_arg8; back main_arg8; back main_arg8; rfl

theorem W5_arg10 (c : Dev nD) : W5 m ρ c (Proc.devRef .tc main_arg10) = m ((c : Thread nD τ).loc main_arg10) := by
  refine (W5_of_ne m ρ c main_arg10 (by decide)).trans ?_
  back main_arg10; back main_arg10; back main_arg10; back main_arg10; rfl

/-- The first region's result array is its window 9. -/
theorem W5_v11 (c : Dev nD) : W5 m ρ c (Proc.devRef .tc main_v11) = (dat0 (V4 m ρ) c).arrAt 9 cfg0.N :=
  W5_arr m ρ c 9

/-! ## The first region's entry contents -/

theorem V4_v4 (c : Dev nD) : (V4 m ρ c main_v4 : FVec F S1600000x16 .f32)
    = takeFill (F := F) (m ((c : Thread nD τ).loc main_arg0)) (idxRow1 (m ((c : Thread nD τ).loc main_arg1))) := by
  show W4 m ρ c (Proc.devRef .tc main_v4) = _
  back main_v4; back main_v4
  refine (ops0_1_v4 (W1 m ρ c)).trans ?_
  rw [W1_arg0, W1_v3]

theorem V4_v5 (c : Dev nD) : (V4 m ρ c main_v5 : FVec F S1600000x16 .f32)
    = takeFill (F := F) (m ((c : Thread nD τ).loc main_arg0)) (idxRow0 (m ((c : Thread nD τ).loc main_arg1))) := by
  show W4 m ρ c (Proc.devRef .tc main_v5) = _
  back main_v5
  refine (ops0_2_v5 (W2 m ρ c)).trans ?_
  rw [W2_arg0, W2_v1]

theorem V4_arg2 (c : Dev nD) : V4 m ρ c main_arg2 = m ((c : Thread nD τ).loc main_arg2) := by
  show W4 m ρ c (Proc.devRef .tc main_arg2) = _
  back main_arg2; back main_arg2; back main_arg2; back main_arg2; rfl

theorem V4_v6 (c : Dev nD) : (V4 m ρ c main_v6 : FVec F S16x64 .f32)
    = extractStridedSlice S16x64 ![0, 0] (m ((c : Thread nD τ).loc main_arg3)) slices_S48x64_S16x64_0_0 :=
  (ops0_3_v6 (W3 m ρ c)).trans (by rw [W3_arg3])

theorem V4_v7 (c : Dev nD) : (V4 m ρ c main_v7 : FVec F S16x64 .f32)
    = extractStridedSlice S16x64 ![16, 0] (m ((c : Thread nD τ).loc main_arg3)) slices_S48x64_S16x64_16_0 :=
  (ops0_3_v7 (W3 m ρ c)).trans (by rw [W3_arg3])

theorem V4_v8 (c : Dev nD) : (V4 m ρ c main_v8 : FVec F S16x64 .f32)
    = extractStridedSlice S16x64 ![32, 0] (m ((c : Thread nD τ).loc main_arg3)) slices_S48x64_S16x64_32_0 :=
  (ops0_3_v8 (W3 m ρ c)).trans (by rw [W3_arg3])

theorem V4_v9 (c : Dev nD) : (V4 m ρ c main_v9 : FVec F S1x64 .f32)
    = shapeCast S1x64 (m ((c : Thread nD τ).loc main_arg4)) shapeCasts_S64_S1x64 :=
  (ops0_3_v9 (W3 m ρ c)).trans (by rw [W3_arg4])

theorem V4_arg5 (c : Dev nD) : V4 m ρ c main_arg5 = m ((c : Thread nD τ).loc main_arg5) := by
  show W4 m ρ c (Proc.devRef .tc main_arg5) = _
  back main_arg5; back main_arg5; back main_arg5; back main_arg5; rfl

theorem V4_v10 (c : Dev nD) : (V4 m ρ c main_v10 : FVec F S1x16 .f32)
    = shapeCast S1x16 (m ((c : Thread nD τ).loc main_arg6)) shapeCasts_S16_S1x16 :=
  (ops0_3_v10 (W3 m ρ c)).trans (by rw [W3_arg6])

/-! ## The second region's entry contents -/

theorem V6_arg0 (c : Dev nD) : V6 m ρ c main_arg0 = m ((c : Thread nD τ).loc main_arg0) := by
  show W6 m ρ c (Proc.devRef .tc main_arg0) = _
  back main_arg0
  refine (W5_of_ne m ρ c main_arg0 (by decide)).trans ?_
  back main_arg0; back main_arg0; exact W2_arg0 m ρ c

/-- The aggregate: the first region's result rows scatter-added into zeros at the raw destination indices. -/
theorem V6_v14 (c : Dev nD) : (V6 m ρ c main_v14 : FVec F S50000x16 .f32)
    = Host.scatterAdd scatter_S50000x16_S1600000x1_S1600000x16_1_0_0_1
        (broadcastInDim S50000x16 ![] bcast_S_S50000x16 (constant S_ .f32 0x00000000#32))
        (idxCol (idxRow1 (m ((c : Thread nD τ).loc main_arg1))))
        ((dat0 (V4 m ρ) c).arrAt 9 cfg0.N) :=
  (ops1_v14 (W5 m ρ c)).trans (by rw [W5_v3, W5_v11])

theorem V6_v15 (c : Dev nD) : (V6 m ρ c main_v15 : FVec F S16x64 .f32)
    = extractStridedSlice S16x64 ![0, 0] (m ((c : Thread nD τ).loc main_arg7)) slices_S32x64_S16x64_0_0 :=
  (ops1_v15 (W5 m ρ c)).trans (by rw [W5_arg7])

theorem V6_v16 (c : Dev nD) : (V6 m ρ c main_v16 : FVec F S16x64 .f32)
    = extractStridedSlice S16x64 ![16, 0] (m ((c : Thread nD τ).loc main_arg7)) slices_S32x64_S16x64_16_0 :=
  (ops1_v16 (W5 m ρ c)).trans (by rw [W5_arg7])

theorem V6_v17 (c : Dev nD) : (V6 m ρ c main_v17 : FVec F S1x64 .f32)
    = shapeCast S1x64 (m ((c : Thread nD τ).loc main_arg8)) shapeCasts_S64_S1x64 :=
  (ops1_v17 (W5 m ρ c)).trans (by rw [W5_arg8])

theorem V6_arg9 (c : Dev nD) : V6 m ρ c main_arg9 = m ((c : Thread nD τ).loc main_arg9) := by
  show W6 m ρ c (Proc.devRef .tc main_arg9) = _
  back main_arg9
  refine (W5_of_ne m ρ c main_arg9 (by decide)).trans ?_
  back main_arg9; back main_arg9; back main_arg9; back main_arg9; rfl

theorem V6_v18 (c : Dev nD) : (V6 m ρ c main_v18 : FVec F S1x16 .f32)
    = shapeCast S1x16 (m ((c : Thread nD τ).loc main_arg10)) shapeCasts_S16_S1x16 :=
  (ops1_v18 (W5 m ρ c)).trans (by rw [W5_arg10])

/-! ## Where the two results end -/

/-- The node result is the second region's output array after its last write-back. -/
theorem W7_v19 (c : Dev nD) : W7 m ρ c (Proc.devRef .tc main_v19) = (dat1 (V6 m ρ) c).arrAt 7 cfg1.N :=
  W7_arr m ρ c 7

/-- The edge result is the first region's output array after its last write-back: nothing later writes it. -/
theorem W7_v11 (c : Dev nD) : W7 m ρ c (Proc.devRef .tc main_v11) = (dat0 (V4 m ρ) c).arrAt 9 cfg0.N := by
  refine (W7_of_ne m ρ c main_v11 (by decide)).trans ?_
  back main_v11; exact W5_v11 m ρ c

end Cert.KernelIdeal.Walk

end
-- ==== Proof.TakeInRange.lean ====
/-
  AN IN-RANGE INDEX VECTOR MAKES THE FILLING TAKE A PLAIN ROW GATHER.

  takeFill x i selects, row by row, between the gathered row of x and a constant row, on the test "the row's
  normalised index lies in [0, 49999]". If every entry of i is in [0, 50000) then normalising changes nothing (no entry is
  negative), every test is true, and the select returns the gathered rows: takeFill x i is the gather of x at the column
  of the normalised indices — the same gather, at the same indices, as a reference that indexes without a range test.
-/
import proofs.«401622_j17970143166937_2_alg».proof.Proof.HostWalk
import Idealize.ShloMosaic.Lib.ReduceAll
import Idealize.ShloMosaic.Lib.Affine
import Idealize.ShloMosaic.Lib.Pipeline.Value
import Idealize.ShloMosaic.Lib.ValueIdx

noncomputable section

namespace Cert.KernelIdeal.Walk

open Cert.KernelIdeal Cert.KernelIdeal.Gen
open Idealize.ShloMosaic Idealize.ShloMosaic.ValueIdx

variable {F : FTy → Type} [FloatOps F]

/-- A left fold by "and" from 1 over words that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a List.mem_cons_self⟩)
      (fun n hn => hl n (List.mem_cons_of_mem _ hn))

/-- A reduction by "and" from 1 of an array of ones is 1 everywhere. -/
theorem reduce_andi_ones {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl]
  exact foldl_andi_ones x _ _ (hinit _) (fun n _ => hx n)

/-- A scalar word broadcast to a vector reads the word everywhere. -/
theorem bcastVec_const (w : BitVec 32) (e : S1600000.Idx) :
    broadcastInDim S1600000 ![] bcast_S_S1600000 (constantI S_ 32 w) e = w :=
  broadcastInDim_apply _ bcast_S_S1600000 (constantI S_ 32 w) e (fun a => a.elim0) (fun a => a.elim0)

/-- A scalar word broadcast to a column reads the word everywhere. -/
theorem bcastCol_const (w : BitVec 32) (q : S1600000x1.Idx) :
    broadcastInDim S1600000x1 ![] bcast_S_S1600000x1 (constantI S_ 32 w) q = w :=
  broadcastInDim_apply _ bcast_S_S1600000x1 (constantI S_ 32 w) q (fun a => a.elim0) (fun a => a.elim0)

/-- The column of a vector reads, at row p, the vector at p. -/
theorem idxCol_apply (v : IVec S1600000 32) (q : S1600000x1.Idx) :
    idxCol v q = v (fun a => match a with | ⟨0, _⟩ => ⟨(q 0).val, (q 0).isLt⟩) := by
  unfold idxCol
  exact broadcastInDim_apply _ bcast_S1600000_S1600000x1_0 v q _ (fun a => match a with
    | ⟨0, _⟩ => by show (q 0).val = if (1600000 : Nat) = 1 then 0 else (q 0).val; rw [if_neg (by decide)])

/-- The one-entry vector 49999, as a [1, 1] array and then as a column, reads 49999 everywhere. -/
theorem bcastCol_last (q : S1600000x1.Idx) :
    broadcastInDim S1600000x1 ![0, 1] bcast_S1x1_S1600000x1_0_1
      (broadcastInDim S1x1 ![1] bcast_S1_S1x1_1 (constantI S1 32 49999#32)) q = 49999#32 := by
  rw [broadcastInDim_apply _ bcast_S1x1_S1600000x1_0_1 _ q (fun a => match a with | ⟨0, _⟩ => ⟨0, Nat.one_pos⟩ | ⟨1, _⟩ => ⟨0, Nat.one_pos⟩)
    (fun a => match a with
      | ⟨0, _⟩ => by show 0 = if (1 : Nat) = 1 then 0 else (q 0).val; rw [if_pos rfl]
      | ⟨1, _⟩ => by show 0 = if (1 : Nat) = 1 then 0 else (q 1).val; rw [if_pos rfl])]
  rw [broadcastInDim_apply _ bcast_S1_S1x1_1 (constantI S1 32 49999#32) _ (fun a => match a with | ⟨0, _⟩ => ⟨0, Nat.one_pos⟩)
    (fun a => match a with
      | ⟨0, _⟩ => by show 0 = if (1 : Nat) = 1 then 0 else _; rw [if_pos rfl])]
  rfl

/-- A non-negative index is its own normal form. -/
theorem normIdx_of_nonneg (i : IVec S1600000 32) (e : S1600000.Idx) (h : 0 ≤ (i e).toInt) : normIdx i e = i e := by
  unfold normIdx
  rw [select_apply]
  have hc : cmpi .slt i (broadcastInDim S1600000 ![] bcast_S_S1600000 (constantI S_ 32 0#32)) e = 0#1 := by
    apply eq_zero_of_ne_one
    show ¬ IntOp.cmpi .slt (i e) (broadcastInDim S1600000 ![] bcast_S_S1600000 (constantI S_ 32 0#32) e) = 1#1
    rw [bcastVec_const, IntOp.cmpi_slt]
    show ¬ (i e).toInt < (0#32 : BitVec 32).toInt
    have : (0#32 : BitVec 32).toInt = 0 := by decide
    omega
  rw [hc, select_zero]

/-- Every row's range test is true when every index is in [0, 50000). -/
theorem inRange_of_range (i : IVec S1600000 32) (hi : ∀ e : S1600000.Idx, 0 ≤ (i e).toInt ∧ (i e).toInt < 50000)
    (p : S1600000.Idx) : inRange (idxCol (normIdx i)) p = 1#1 := by
  unfold inRange
  refine reduce_andi_ones _ _ _ _ p (fun _ => rfl) (fun q => ?_)
  show IntOp.andi (IntOp.cmpi .sge (idxCol (normIdx i) q) (broadcastInDim S1600000x1 ![] bcast_S_S1600000x1 (constantI S_ 32 0#32) q))
      (IntOp.cmpi .sle (idxCol (normIdx i) q) (broadcastInDim S1600000x1 ![0, 1] bcast_S1x1_S1600000x1_0_1
        (broadcastInDim S1x1 ![1] bcast_S1_S1x1_1 (constantI S1 32 49999#32)) q)) = 1#1
  rw [bcastCol_const, bcastCol_last, idxCol_apply, normIdx_of_nonneg i _ (hi _).1, IntOp.andi_eq_one, IntOp.cmpi_sge, IntOp.cmpi_sle]
  have h0 : (0#32 : BitVec 32).toInt = 0 := by decide
  have h1 : (49999#32 : BitVec 32).toInt = 49999 := by decide
  have := hi (fun a => match a with | ⟨0, _⟩ => ⟨(q 0).val, (q 0).isLt⟩)
  omega

/-- THE TAKE OF IN-RANGE INDICES is the plain gather at the column of the normalised indices. -/
theorem takeFill_eq_gather (x0 : FVec F S50000x16 .f32) (i : IVec S1600000 32)
    (hi : ∀ e : S1600000.Idx, 0 ≤ (i e).toInt ∧ (i e).toInt < 50000) :
    takeFill x0 i = Host.gather gather_S50000x16_S1600000x1_S1600000x16_1_0_n_n_0_1_116 x0 (idxCol (normIdx i)) := by
  funext j
  unfold takeFill
  rw [select_apply]
  have hm : broadcastInDim S1600000x16 ![0] bcast_S1600000_S1600000x16_0 (inRange (idxCol (normIdx i))) j = 1#1 := by
    rw [broadcastInDim_apply _ bcast_S1600000_S1600000x16_0 _ j (fun a => match a with | ⟨0, _⟩ => ⟨(j 0).val, (j 0).isLt⟩)
      (fun a => match a with
        | ⟨0, _⟩ => by show (j 0).val = if (1600000 : Nat) = 1 then 0 else (j 0).val; rw [if_neg (by decide)])]
    exact inRange_of_range i hi _
  rw [hm, select_one]

end Cert.KernelIdeal.Walk

end
-- ==== Proof.PreRange.lean ====
/-
  THE PRECONDITION'S LAST CONJUNCT, READ BACK: EVERY ENTRY OF THE EDGE LIST IS A ROW NUMBER OF x.

  The precondition is a conjunction of "all entries finite" tests of the float inputs and of the test
  "all entries e of the [2, E] edge list satisfy 0 ≤ e and e < 50000", each an "and"-reduction to one bit; the claim's
  hypothesis says the conjunction is 1. Hence the last reduction is 1, hence each of its entries is 1, hence each
  entry of the edge list, read as a signed integer, lies in [0, 50000) — and so does each entry of its row 1 (the
  destinations) and of its row 0 (the sources), which are entries of it.
-/
import proofs.«401622_j17970143166937_2_alg».proof.Defs
import proofs.«401622_j17970143166937_2_alg».proof.Proof.Gen.Pre_finite_inputs
import proofs.«401622_j17970143166937_2_alg».proof.Proof.HostWalk
import Idealize.ShloMosaic.Lib.ReduceAll
import Idealize.ShloMosaic.Lib.Affine
import Idealize.ShloMosaic.Lib.Pipeline.Value
import Idealize.ShloMosaic.Lib.ValueIdx

noncomputable section

namespace Cert.KernelIdeal.Walk

open Cert.KernelIdeal Cert.KernelIdeal.Gen
open Idealize.ShloMosaic Idealize.ShloMosaic.ValueIdx Idealize.ShloMosaic.TcCoe Idealize.SL.Sem

/-- Under the precondition every entry of the edge list is in [0, 50000). -/
theorem edgeList_range (m : (ℓ : Loc nD τ sig) → Buf (Elt Ideal) ℓ)
    (hpre : Cert.Pre_KernelIdeal (hPre_finite_inputs := Cert.Pre_finite_inputs.Gen.facts) m) (c : Dev nD)
    (i : S2x1600000.Idx) :
    0 ≤ ((m ((c : Thread nD τ).loc main_arg1) : IVec S2x1600000 32) i).toInt
      ∧ ((m ((c : Thread nD τ).loc main_arg1) : IVec S2x1600000 32) i).toInt < 50000 := by
  haveI : Subsingleton Cert.Pre_finite_inputs.S_.Idx := ⟨fun a b => funext fun d => d.elim0⟩
  -- the conjunction of all the tests, at the scalar's one index, is 1
  have h := congrFun (hpre c) ValueIdx.ix0
  dsimp only [Cert.Pre_finite_inputs.fn, Cert.Pre_finite_inputs.fn_part1, Cert.Pre_finite_inputs.fn_part2,
    Cert.Pre_finite_inputs.fn_part3] at h
  -- its last conjunct is the "and"-reduction of the range test over the whole edge list
  have h54 := (IntOp.andi_eq_one.1 h).2
  -- so the range test is 1 at every entry
  have h53 := Host.reduce_andi_all _ _ _ _ _ h54 i
  obtain ⟨hge, hlt⟩ := IntOp.andi_eq_one.1 h53
  -- and the two comparisons with the broadcast constants 0 and 50000 read back as inequalities of signed integers
  have hge' : (0#32 : BitVec 32).toInt ≤ ((m ((c : Thread nD τ).loc main_arg1) : IVec S2x1600000 32) i).toInt :=
    IntOp.cmpi_sge.1 hge
  have hlt' : ((m ((c : Thread nD τ).loc main_arg1) : IVec S2x1600000 32) i).toInt < (50000#32 : BitVec 32).toInt :=
    IntOp.cmpi_slt.1 hlt
  have z0 : (0#32 : BitVec 32).toInt = 0 := by decide
  have z1 : (50000#32 : BitVec 32).toInt = 50000 := by decide
  rw [z0] at hge'
  rw [z1] at hlt'
  exact ⟨hge', hlt'⟩

/-- Row 1 of an edge list whose entries are in range has its entries in range. -/
theorem idxRow1_range (x1 : IVec S2x1600000 32) (h : ∀ i : S2x1600000.Idx, 0 ≤ (x1 i).toInt ∧ (x1 i).toInt < 50000)
    (e : S1600000.Idx) : 0 ≤ (idxRow1 x1 e).toInt ∧ (idxRow1 x1 e).toInt < 50000 := by
  obtain ⟨e0, rfl⟩ : ∃ e0 : Fin 1600000, e = ix1 e0 := ⟨e 0, eq_ix1 e⟩
  have h1 : idxRow1 x1 (ix1 e0) = x1 (ix2 1 e0) := by
    unfold idxRow1
    refine (shapeCast_apply _ shapeCasts_S1x1600000_S1600000 (ix1 e0) (ix2 0 e0) (by
      rewrite [Shape.rowMajor_val_two, Shape.rowMajor_val_one]
      show 0 * 1600000 + e0.val = e0.val
      omega)).trans ?_
    exact extractStridedSlice_apply ![1, 0] x1 slices_S2x1600000_S1x1600000_1_0 (ix2 0 e0) (ix2 1 e0) (fun a =>
      match a with
      | ⟨0, _⟩ => by show 1 = 1 + 0; omega
      | ⟨1, _⟩ => by show e0.val = 0 + e0.val; omega)
  rw [h1]
  exact h _

/-- Row 0 of an edge list whose entries are in range has its entries in range. -/
theorem idxRow0_range (x1 : IVec S2x1600000 32) (h : ∀ i : S2x1600000.Idx, 0 ≤ (x1 i).toInt ∧ (x1 i).toInt < 50000)
    (e : S1600000.Idx) : 0 ≤ (idxRow0 x1 e).toInt ∧ (idxRow0 x1 e).toInt < 50000 := by
  obtain ⟨e0, rfl⟩ : ∃ e0 : Fin 1600000, e = ix1 e0 := ⟨e 0, eq_ix1 e⟩
  have h1 : idxRow0 x1 (ix1 e0) = x1 (ix2 0 e0) := by
    unfold idxRow0
    refine (shapeCast_apply _ shapeCasts_S1x1600000_S1600000 (ix1 e0) (ix2 0 e0) (by
      rewrite [Shape.rowMajor_val_two, Shape.rowMajor_val_one]
      show 0 * 1600000 + e0.val = e0.val
      omega)).trans ?_
    exact extractStridedSlice_apply ![0, 0] x1 slices_S2x1600000_S1x1600000_0_0 (ix2 0 e0) (ix2 0 e0) (fun a =>
      match a with
      | ⟨0, _⟩ => by show 0 = 0 + 0; omega
      | ⟨1, _⟩ => by show e0.val = 0 + e0.val; omega)
  rw [h1]
  exact h _

end Cert.KernelIdeal.Walk

end
-- ==== Proof.EdgeRegionValue.lean ====
/-
  THE EDGE NETWORK'S KERNEL REGION, AS A VALUE.

  The region runs over 160 grid points; point t reads rows 10000 t, …, 10000 t + 9999 of the three [E, 16] input arrays
  (gathered destination rows, gathered source rows, edge features) and the whole of the six weight arrays, and writes
  the same rows of the [E, 16] output. Its body computes, of the blocks it loaded,
      max ((xd · wd + xs · ws) + e · we + b1, 0) · w2 + b2
  with every product a matrix product into a zero accumulator: at the exact instance the three-input network mlp3 of
  the blocks. A row block of the network of the arrays is the network of the row blocks, and the 160 blocks tile the
  output array, so the output array ends holding the network of the arrays as the region found them.
-/
import proofs.«401622_j17970143166937_2_alg».proof.Proof.Gen.KernelIdeal.Frame
import proofs.«401622_j17970143166937_2_alg».proof.Proof.MlpSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Edge

open Cert.KernelIdeal Cert.KernelIdeal.Gen Cert.Mlp
open Idealize.ShloMosaic Idealize.ShloMosaic.ValueIdx Idealize.ShloMosaic.TcCoe Idealize.SL.Sem
open Idealize.ShloMosaic.Pipeline (Dat)

/-! ## The [10000, 16] × [16, 64] product at an index -/

/-- The left operand's row coordinate is the output's row. -/
theorem lhs_mmIn_0 (i : S10000x64.Idx) (q : dot_S10000x16_S16x64_S10000x64_1_0_0_1_n_n.contr.Idx) :
    (dot_S10000x16_S16x64_S10000x64_1_0_0_1_n_n.lhsIdx i q 0).val = (i 0).val := by
  unfold DotDims.lhsIdx
  rw [dif_neg (show ¬(0 : Fin S10000x16.rank) ∈ dot_S10000x16_S16x64_S10000x64_1_0_0_1_n_n.lhsBatch by decide), dif_pos (show (0 : Fin S10000x16.rank) ∈ dot_S10000x16_S16x64_S10000x64_1_0_0_1_n_n.lhsNonContracting by decide)]
  rfl
/-- The left operand's column coordinate is the contraction index. -/
theorem lhs_mmIn_1 (i : S10000x64.Idx) (q : dot_S10000x16_S16x64_S10000x64_1_0_0_1_n_n.contr.Idx) :
    (dot_S10000x16_S16x64_S10000x64_1_0_0_1_n_n.lhsIdx i q 1).val = (q ⟨0, by decide⟩).val :=
  dot_S10000x16_S16x64_S10000x64_1_0_0_1_n_n.lhsIdx_val_of_single rfl i q
/-- The right operand's row coordinate is the contraction index. -/
theorem rhs_mmIn_0 (i : S10000x64.Idx) (q : dot_S10000x16_S16x64_S10000x64_1_0_0_1_n_n.contr.Idx) :
    (dot_S10000x16_S16x64_S10000x64_1_0_0_1_n_n.rhsIdx i q 0).val = (q ⟨0, by decide⟩).val :=
  dot_S10000x16_S16x64_S10000x64_1_0_0_1_n_n.rhsIdx_val_of_single rfl i q
/-- The right operand's column coordinate is the output's column. -/
theorem rhs_mmIn_1 (i : S10000x64.Idx) (q : dot_S10000x16_S16x64_S10000x64_1_0_0_1_n_n.contr.Idx) :
    (dot_S10000x16_S16x64_S10000x64_1_0_0_1_n_n.rhsIdx i q 1).val = (i 1).val := by
  unfold DotDims.rhsIdx
  rw [dif_neg (show ¬(1 : Fin S16x64.rank) ∈ dot_S10000x16_S16x64_S10000x64_1_0_0_1_n_n.rhsBatch by decide), dif_pos (show (1 : Fin S16x64.rank) ∈ dot_S10000x16_S16x64_S10000x64_1_0_0_1_n_n.rhsNonContracting by decide)]
  rfl

/-- The product into the zero accumulator, at (r, k): the sum over the 16 contraction positions of the operands' products. -/
theorem mmIn_apply (l : FVec Ideal S10000x16 .f32) (w : FVec Ideal S16x64 .f32) (r : Fin 10000) (k : Fin 64) :
    matmul (F := Ideal) dot_S10000x16_S16x64_S10000x64_1_0_0_1_n_n none l w (constant (F := Ideal) S10000x64 .f32 0x00000000#32) (ix2 r k)
      = ∑ a : Fin 16, l (ix2 r a) * w (ix2 a k) := by
  simp only [matmul]
  rw [Ideal.matmul_constant_zero_apply, ← Equiv.sum_comp (ValueIdx.contrEquiv1 dot_S10000x16_S16x64_S10000x64_1_0_0_1_n_n 16 rfl rfl).symm]
  refine Finset.sum_congr rfl fun a _ => ?_
  have hk := ValueIdx.contrEquiv1_symm_val dot_S10000x16_S16x64_S10000x64_1_0_0_1_n_n 16 rfl rfl a
  have el : dot_S10000x16_S16x64_S10000x64_1_0_0_1_n_n.lhsIdx (ix2 r k) ((ValueIdx.contrEquiv1 dot_S10000x16_S16x64_S10000x64_1_0_0_1_n_n 16 rfl rfl).symm a) = ix2 r a := funext fun b => Fin.ext (by
    match b with
    | ⟨0, _⟩ => exact lhs_mmIn_0 _ _
    | ⟨1, _⟩ => exact (lhs_mmIn_1 _ _).trans hk)
  have er : dot_S10000x16_S16x64_S10000x64_1_0_0_1_n_n.rhsIdx (ix2 r k) ((ValueIdx.contrEquiv1 dot_S10000x16_S16x64_S10000x64_1_0_0_1_n_n 16 rfl rfl).symm a) = ix2 a k := funext fun b => Fin.ext (by
    match b with
    | ⟨0, _⟩ => exact (rhs_mmIn_0 _ _).trans hk
    | ⟨1, _⟩ => exact rhs_mmIn_1 _ _)
  rw [el, er]

/-! ## The [10000, 64] × [64, 16] product at an index -/

/-- The left operand's row coordinate is the output's row. -/
theorem lhs_mmOut_0 (i : S10000x16.Idx) (q : dot_S10000x64_S64x16_S10000x16_1_0_0_1_n_n.contr.Idx) :
    (dot_S10000x64_S64x16_S10000x16_1_0_0_1_n_n.lhsIdx i q 0).val = (i 0).val := by
  unfold DotDims.lhsIdx
  rw [dif_neg (show ¬(0 : Fin S10000x64.rank) ∈ dot_S10000x64_S64x16_S10000x16_1_0_0_1_n_n.lhsBatch by decide), dif_pos (show (0 : Fin S10000x64.rank) ∈ dot_S10000x64_S64x16_S10000x16_1_0_0_1_n_n.lhsNonContracting by decide)]
  rfl
/-- The left operand's column coordinate is the contraction index. -/
theorem lhs_mmOut_1 (i : S10000x16.Idx) (q : dot_S10000x64_S64x16_S10000x16_1_0_0_1_n_n.contr.Idx) :
    (dot_S10000x64_S64x16_S10000x16_1_0_0_1_n_n.lhsIdx i q 1).val = (q ⟨0, by decide⟩).val :=
  dot_S10000x64_S64x16_S10000x16_1_0_0_1_n_n.lhsIdx_val_of_single rfl i q
/-- The right operand's row coordinate is the contraction index. -/
theorem rhs_mmOut_0 (i : S10000x16.Idx) (q : dot_S10000x64_S64x16_S10000x16_1_0_0_1_n_n.contr.Idx) :
    (dot_S10000x64_S64x16_S10000x16_1_0_0_1_n_n.rhsIdx i q 0).val = (q ⟨0, by decide⟩).val :=
  dot_S10000x64_S64x16_S10000x16_1_0_0_1_n_n.rhsIdx_val_of_single rfl i q
/-- The right operand's column coordinate is the output's column. -/
theorem rhs_mmOut_1 (i : S10000x16.Idx) (q : dot_S10000x64_S64x16_S10000x16_1_0_0_1_n_n.contr.Idx) :
    (dot_S10000x64_S64x16_S10000x16_1_0_0_1_n_n.rhsIdx i q 1).val = (i 1).val := by
  unfold DotDims.rhsIdx
  rw [dif_neg (show ¬(1 : Fin S64x16.rank) ∈ dot_S10000x64_S64x16_S10000x16_1_0_0_1_n_n.rhsBatch by decide), dif_pos (show (1 : Fin S64x16.rank) ∈ dot_S10000x64_S64x16_S10000x16_1_0_0_1_n_n.rhsNonContracting by decide)]
  rfl

/-- The product into the zero accumulator, at (r, k): the sum over the 64 contraction positions of the operands' products. -/
theorem mmOut_apply (l : FVec Ideal S10000x64 .f32) (w : FVec Ideal S64x16 .f32) (r : Fin 10000) (k : Fin 16) :
    matmul (F := Ideal) dot_S10000x64_S64x16_S10000x16_1_0_0_1_n_n none l w (constant (F := Ideal) S10000x16 .f32 0x00000000#32) (ix2 r k)
      = ∑ a : Fin 64, l (ix2 r a) * w (ix2 a k) := by
  simp only [matmul]
  rw [Ideal.matmul_constant_zero_apply, ← Equiv.sum_comp (ValueIdx.contrEquiv1 dot_S10000x64_S64x16_S10000x16_1_0_0_1_n_n 64 rfl rfl).symm]
  refine Finset.sum_congr rfl fun a _ => ?_
  have hk := ValueIdx.contrEquiv1_symm_val dot_S10000x64_S64x16_S10000x16_1_0_0_1_n_n 64 rfl rfl a
  have el : dot_S10000x64_S64x16_S10000x16_1_0_0_1_n_n.lhsIdx (ix2 r k) ((ValueIdx.contrEquiv1 dot_S10000x64_S64x16_S10000x16_1_0_0_1_n_n 64 rfl rfl).symm a) = ix2 r a := funext fun b => Fin.ext (by
    match b with
    | ⟨0, _⟩ => exact lhs_mmOut_0 _ _
    | ⟨1, _⟩ => exact (lhs_mmOut_1 _ _).trans hk)
  have er : dot_S10000x64_S64x16_S10000x16_1_0_0_1_n_n.rhsIdx (ix2 r k) ((ValueIdx.contrEquiv1 dot_S10000x64_S64x16_S10000x16_1_0_0_1_n_n 64 rfl rfl).symm a) = ix2 a k := funext fun b => Fin.ext (by
    match b with
    | ⟨0, _⟩ => exact (rhs_mmOut_0 _ _).trans hk
    | ⟨1, _⟩ => exact rhs_mmOut_1 _ _)
  rw [el, er]

/-! ## The body's payload -/

/-- The body's stored value, at the exact instance, is the three-input network of the blocks it loaded. -/
theorem pay_eq (x0 : Vec Ideal S10000x16 .f32) (x3 : Vec Ideal S16x64 .f32) (x1 : Vec Ideal S10000x16 .f32)
    (x4 : Vec Ideal S16x64 .f32) (x2 : Vec Ideal S10000x16 .f32) (x5 : Vec Ideal S16x64 .f32) (x6 : Vec Ideal S1x64 .f32)
    (x7 : Vec Ideal S64x16 .f32) (x8 : Vec Ideal S1x16 .f32) :
    k0_pay1 (F := Ideal) x0 x3 x1 x4 x2 x5 x6 x7 x8 = mlp3 (R := 10000) x0 x1 x2 x3 x4 x5 x6 x7 x8 := by
  funext i
  obtain ⟨r, j, rfl⟩ : ∃ (r : Fin 10000) (j : Fin 16), i = ix2 r j := ⟨i 0, i 1, eq_ix2 i⟩
  rw [mlp3_apply]
  unfold k0_pay1 mlp3At layer2At dotRow
  simp only [shapeCast_self]
  rw [addf_apply, mmOut_apply, broadcastTo_1b_ab_apply]
  refine congrArg (· + x8 (ix2 0 j)) (Finset.sum_congr rfl fun k _ => ?_)
  rw [maximumf_apply, broadcast_apply, addf_apply, addf_apply, addf_apply, mmIn_apply, mmIn_apply, mmIn_apply,
    broadcastTo_1b_ab_apply]
  show max _ (Ideal.ofBits .f32 0x00000000#32) * _ = _
  rw [Ideal.ofBits_zero_f32]

/-! ## The blocks the body loads, as row blocks of the arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the three row inputs and the output take block (t, 0) at point t. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_9.index t (0 : Fin 2) = t.val ∧ win0_9.index t (1 : Fin 2) = 0) :=
  (by decide +kernel : ∀ t : Fin grid0.N, _)

/-- The six weight inputs take block (0, 0) at every point. -/
theorem idx_weights : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- Point t's rows lie inside the array. -/
theorem rows_le (t : Fin cfg0.N) : (t.val + 1) * 10000 ≤ 1600000 := by
  have := t.isLt; have hN : cfg0.N = 160 := N_0; omega

/-- Input window 0's block at point t is row block t of the first array. -/
theorem blk0_rows (c : Dev nD) (t : Fin cfg0.N) :
    (iblk0 V c 0 t : Vec Ideal S10000x16 .f32) = rowBlock (R := 1600000) (R' := 10000) t.val (rows_le t) (V c main_v4) := by
  funext y
  show V c main_v4 (((cfg0.win 0).blk t).view.emb y) = V c main_v4 _
  congr 1
  funext a
  apply Fin.ext
  have e := (idx_rows t).1
  match a with
  | ⟨0, _⟩ =>
    show win0_0.index t (0 : Fin 2) * 10000 + 1 * (y 0).val = t.val * 10000 + (y 0).val
    rw [e.1]; omega
  | ⟨1, _⟩ =>
    show win0_0.index t (1 : Fin 2) * 16 + 1 * (y 1).val = (y 1).val
    rw [e.2]; omega

/-- Input window 1's block at point t is row block t of the second array. -/
theorem blk1_rows (c : Dev nD) (t : Fin cfg0.N) :
    (iblk0 V c 1 t : Vec Ideal S10000x16 .f32) = rowBlock (R := 1600000) (R' := 10000) t.val (rows_le t) (V c main_v5) := by
  funext y
  show V c main_v5 (((cfg0.win 1).blk t).view.emb y) = V c main_v5 _
  congr 1
  funext a
  apply Fin.ext
  have e := (idx_rows t).2.1
  match a with
  | ⟨0, _⟩ =>
    show win0_1.index t (0 : Fin 2) * 10000 + 1 * (y 0).val = t.val * 10000 + (y 0).val
    rw [e.1]; omega
  | ⟨1, _⟩ =>
    show win0_1.index t (1 : Fin 2) * 16 + 1 * (y 1).val = (y 1).val
    rw [e.2]; omega

/-- Input window 2's block at point t is row block t of the third array. -/
theorem blk2_rows (c : Dev nD) (t : Fin cfg0.N) :
    (iblk0 V c 2 t : Vec Ideal S10000x16 .f32) = rowBlock (R := 1600000) (R' := 10000) t.val (rows_le t) (V c main_arg2) := by
  funext y
  show V c main_arg2 (((cfg0.win 2).blk t).view.emb y) = V c main_arg2 _
  congr 1
  funext a
  apply Fin.ext
  have e := (idx_rows t).2.2.1
  match a with
  | ⟨0, _⟩ =>
    show win0_2.index t (0 : Fin 2) * 10000 + 1 * (y 0).val = t.val * 10000 + (y 0).val
    rw [e.1]; omega
  | ⟨1, _⟩ =>
    show win0_2.index t (1 : Fin 2) * 16 + 1 * (y 1).val = (y 1).val
    rw [e.2]; omega

/-- Input window 3's block at every point is the whole of the first band of first-layer weights. -/
theorem blk3_whole (c : Dev nD) (t : Fin cfg0.N) :
    (iblk0 V c 3 t : Vec Ideal S16x64 .f32) = V c main_v6 := by
  funext y
  show V c main_v6 (((cfg0.win 3).blk t).view.emb y) = V c main_v6 y
  congr 1
  funext a
  apply Fin.ext
  have e := (idx_weights t).1
  match a with
  | ⟨0, _⟩ =>
    show win0_3.index t (0 : Fin 2) * 16 + 1 * (y 0).val = (y 0).val
    rw [e.1]; omega
  | ⟨1, _⟩ =>
    show win0_3.index t (1 : Fin 2) * 64 + 1 * (y 1).val = (y 1).val
    rw [e.2]; omega

/-- Input window 4's block at every point is the whole of the second band of first-layer weights. -/
theorem blk4_whole (c : Dev nD) (t : Fin cfg0.N) :
    (iblk0 V c 4 t : Vec Ideal S16x64 .f32) = V c main_v7 := by
  funext y
  show V c main_v7 (((cfg0.win 4).blk t).view.emb y) = V c main_v7 y
  congr 1
  funext a
  apply Fin.ext
  have e := (idx_weights t).2.1
  match a with
  | ⟨0, _⟩ =>
    show win0_4.index t (0 : Fin 2) * 16 + 1 * (y 0).val = (y 0).val
    rw [e.1]; omega
  | ⟨1, _⟩ =>
    show win0_4.index t (1 : Fin 2) * 64 + 1 * (y 1).val = (y 1).val
    rw [e.2]; omega

/-- Input window 5's block at every point is the whole of the third band of first-layer weights. -/
theorem blk5_whole (c : Dev nD) (t : Fin cfg0.N) :
    (iblk0 V c 5 t : Vec Ideal S16x64 .f32) = V c main_v8 := by
  funext y
  show V c main_v8 (((cfg0.win 5).blk t).view.emb y) = V c main_v8 y
  congr 1
  funext a
  apply Fin.ext
  have e := (idx_weights t).2.2.1
  match a with
  | ⟨0, _⟩ =>
    show win0_5.index t (0 : Fin 2) * 16 + 1 * (y 0).val = (y 0).val
    rw [e.1]; omega
  | ⟨1, _⟩ =>
    show win0_5.index t (1 : Fin 2) * 64 + 1 * (y 1).val = (y 1).val
    rw [e.2]; omega

/-- Input window 6's block at every point is the whole of the first bias row. -/
theorem blk6_whole (c : Dev nD) (t : Fin cfg0.N) :
    (iblk0 V c 6 t : Vec Ideal S1x64 .f32) = V c main_v9 := by
  funext y
  show V c main_v9 (((cfg0.win 6).blk t).view.emb y) = V c main_v9 y
  congr 1
  funext a
  apply Fin.ext
  have e := (idx_weights t).2.2.2.1
  match a with
  | ⟨0, _⟩ =>
    show win0_6.index t (0 : Fin 2) * 1 + 1 * (y 0).val = (y 0).val
    rw [e.1]; omega
  | ⟨1, _⟩ =>
    show win0_6.index t (1 : Fin 2) * 64 + 1 * (y 1).val = (y 1).val
    rw [e.2]; omega

/-- Input window 7's block at every point is the whole of the second-layer weights. -/
theorem blk7_whole (c : Dev nD) (t : Fin cfg0.N) :
    (iblk0 V c 7 t : Vec Ideal S64x16 .f32) = V c main_arg5 := by
  funext y
  show V c main_arg5 (((cfg0.win 7).blk t).view.emb y) = V c main_arg5 y
  congr 1
  funext a
  apply Fin.ext
  have e := (idx_weights t).2.2.2.2.1
  match a with
  | ⟨0, _⟩ =>
    show win0_7.index t (0 : Fin 2) * 64 + 1 * (y 0).val = (y 0).val
    rw [e.1]; omega
  | ⟨1, _⟩ =>
    show win0_7.index t (1 : Fin 2) * 16 + 1 * (y 1).val = (y 1).val
    rw [e.2]; omega

/-- Input window 8's block at every point is the whole of the second bias row. -/
theorem blk8_whole (c : Dev nD) (t : Fin cfg0.N) :
    (iblk0 V c 8 t : Vec Ideal S1x16 .f32) = V c main_v10 := by
  funext y
  show V c main_v10 (((cfg0.win 8).blk t).view.emb y) = V c main_v10 y
  congr 1
  funext a
  apply Fin.ext
  have e := (idx_weights t).2.2.2.2.2
  match a with
  | ⟨0, _⟩ =>
    show win0_8.index t (0 : Fin 2) * 1 + 1 * (y 0).val = (y 0).val
    rw [e.1]; omega
  | ⟨1, _⟩ =>
    show win0_8.index t (1 : Fin 2) * 16 + 1 * (y 1).val = (y 1).val
    rw [e.2]; omega

/-- The output window's block at point t of an [E, 16] array is its row block t. -/
theorem oblk_rows (c : Dev nD) (t : Fin cfg0.N) (G : FVec Ideal S1600000x16 .f32) :
    (((cfg0.win 9).blk t).view.read (Elt Ideal) G : Vec Ideal S10000x16 .f32)
      = rowBlock (R := 1600000) (R' := 10000) t.val (rows_le t) G := by
  funext y
  show G (((cfg0.win 9).blk t).view.emb y) = G _
  congr 1
  funext a
  apply Fin.ext
  have e := (idx_rows t).2.2.2
  match a with
  | ⟨0, _⟩ =>
    show win0_9.index t (0 : Fin 2) * 10000 + 1 * (y 0).val = t.val * 10000 + (y 0).val
    rw [e.1]; omega
  | ⟨1, _⟩ =>
    show win0_9.index t (1 : Fin 2) * 16 + 1 * (y 1).val = (y 1).val
    rw [e.2]; omega

/-! ## What a point writes back, and the output array after the region -/

/-- The network of equal operands is the same network. -/
theorem mlp3_congr {R : Nat} {A A' B B' C C' : A2 R 16} {wa wa' wb wb' wc wc' : A2 16 64} {b1 b1' : A2 1 64}
    {w2 w2' : A2 64 16} {b2 b2' : A2 1 16} (hA : A = A') (hB : B = B') (hC : C = C') (hwa : wa = wa') (hwb : wb = wb')
    (hwc : wc = wc') (hb1 : b1 = b1') (hw2 : w2 = w2') (hb2 : b2 = b2') :
    mlp3 A B C wa wb wc b1 w2 b2 = mlp3 A' B' C' wa' wb' wc' b1' w2' b2' := by
  subst hA hB hC hwa hwb hwc hb1 hw2 hb2; rfl

/-- The network of the arrays as the region found them. -/
abbrev net (c : Dev nD) : FVec Ideal S1600000x16 .f32 :=
  mlp3 (R := 1600000) (V c main_v4) (V c main_v5) (V c main_arg2) (V c main_v6) (V c main_v7) (V c main_v8) (V c main_v9)
    (V c main_arg5) (V c main_v10)

/-- WHAT POINT t WRITES BACK is block t of the network of the arrays: the network of the row blocks is the row block
    of the network. -/
theorem flushed_eq (c : Dev nD) (t : Fin cfg0.N) :
    (dat0 (F := Ideal) V c).flushed 9 t = ((cfg0.win 9).blk t).view.read (Elt Ideal) (net V c) := by
  show (cfg0.win 9).cut (grid0.coords t) ((dat0 (F := Ideal) V c).after 9 t) = _
  rw [after0_9]
  unfold out0_9
  rw [View.canon_unit_zero hz]
  simp only [View.ld_unit_zero (S := S10000x16) hz, View.ld_unit_zero (S := S16x64) hz, View.ld_unit_zero (S := S1x64) hz,
    View.ld_unit_zero (S := S64x16) hz, View.ld_unit_zero (S := S1x16) hz]
  rw [pay_eq]
  refine Eq.trans ?_ (oblk_rows c t (net V c)).symm
  refine Eq.trans ?_ (mlp3_rowBlock t.val (rows_le t) (V c main_v4) (V c main_v5) (V c main_arg2) (V c main_v6) (V c main_v7)
    (V c main_v8) (V c main_v9) (V c main_arg5) (V c main_v10))
  show mlp3 (R := 10000) (iblk0 V c 0 t) (iblk0 V c 1 t) (iblk0 V c 2 t) (iblk0 V c 3 t) (iblk0 V c 4 t) (iblk0 V c 5 t)
    (iblk0 V c 6 t) (iblk0 V c 7 t) (iblk0 V c 8 t) = _
  exact mlp3_congr (blk0_rows V c t) (blk1_rows V c t) (blk2_rows V c t) (blk3_whole V c t) (blk4_whole V c t)
    (blk5_whole V c t) (blk6_whole V c t) (blk7_whole V c t) (blk8_whole V c t)

/-- An index of the output array is in point t's block iff each coordinate is in the block's range on its axis. -/
theorem mem_blk (t : Fin cfg0.N) (i : S1600000x16.Idx) :
    i ∈ ((cfg0.win 9).blk t).view.set ↔ ∀ a : Fin 2, win0_9.index t a * S10000x16.size a ≤ (i a).val
      ∧ (i a).val < win0_9.index t a * S10000x16.size a + S10000x16.size a := by
  show i ∈ ((View.whole main_v11).slice (win0_9.rect t)).set ↔ _
  rw [View.set_slice_whole, Rect.mem_set_unit]
  exact Iff.rfl

/-- Row r of the output array lies in the block of point r / 10000, which writes back. -/
theorem cover (i : S1600000x16.Idx) :
    ∃ t : Fin cfg0.N, (cfg0.win 9).flush t = true ∧ i ∈ ((cfg0.win 9).blk t).view.set := by
  have hi0 : (i 0).val < 1600000 := (i 0).isLt
  have hi1 : (i 1).val < 16 := (i 1).isLt
  have hN : cfg0.N = 160 := N_0
  obtain ⟨t, ht⟩ : ∃ t : Fin cfg0.N, t.val = (i 0).val / 10000 := ⟨⟨(i 0).val / 10000, by rw [hN]; omega⟩, rfl⟩
  refine ⟨t, flush0_9 t, ?_⟩
  rw [mem_blk]
  obtain ⟨e0, e1⟩ := (idx_rows t).2.2.2
  intro a
  match a with
  | ⟨0, _⟩ =>
    show win0_9.index t (0 : Fin 2) * 10000 ≤ (i 0).val ∧ (i 0).val < win0_9.index t (0 : Fin 2) * 10000 + 10000
    rw [e0, ht]; omega
  | ⟨1, _⟩ =>
    show win0_9.index t (1 : Fin 2) * 16 ≤ (i 1).val ∧ (i 1).val < win0_9.index t (1 : Fin 2) * 16 + 16
    rw [e1]; omega

/-- THE OUTPUT ARRAY after the region: the three-input network of the arrays as the region found them. -/
theorem final0 (c : Dev nD) :
    (dat0 (F := Ideal) V c).arrAt 9 cfg0.N
      = mlp3 (R := 1600000) (V c main_v4) (V c main_v5) (V c main_arg2) (V c main_v6) (V c main_v7) (V c main_v8) (V c main_v9)
          (V c main_arg5) (V c main_v10) :=
  (dat0 (F := Ideal) V c).arrAt_eq_of_cover 9 (net V c) (fun t _ => flushed_eq V c t) cover

end Cert.KernelIdeal.Edge

end
-- ==== Proof.NodeRegionValue.lean ====
/-
  THE NODE NETWORK'S KERNEL REGION, AS A VALUE.

  The region runs over 10 grid points; point t reads rows 5000 t, …, 5000 t + 4999 of the two [N, 16] input arrays (node
  features, aggregated messages) and the whole of the five weight arrays, and writes the same rows of the [N, 16] output.
  Its body computes, of the blocks it loaded,
      max ((x · wx + agg · wa) + b1, 0) · w2 + b2
  with every product a matrix product into a zero accumulator: at the exact instance the two-input network mlp2 of the
  blocks. A row block of the network of the arrays is the network of the row blocks, and the 10 blocks tile the output
  array, so the output array ends holding the network of the arrays as the region found them.
-/
import proofs.«401622_j17970143166937_2_alg».proof.Proof.Gen.KernelIdeal.Frame
import proofs.«401622_j17970143166937_2_alg».proof.Proof.MlpSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Node

open Cert.KernelIdeal Cert.KernelIdeal.Gen Cert.Mlp
open Idealize.ShloMosaic Idealize.ShloMosaic.ValueIdx Idealize.ShloMosaic.TcCoe Idealize.SL.Sem
open Idealize.ShloMosaic.Pipeline (Dat)

/-! ## The body's two kinds of matrix product, read at an index

Each product contracts axis 1 of its left operand with axis 0 of its right operand, into a zero accumulator: at
(r, k) it is the sum over the contracted position a of left (r, a) times right (a, k). -/

private theorem lhsA_0 (i : S5000x64.Idx) (q : dot_S5000x16_S16x64_S5000x64_1_0_0_1_n_n.contr.Idx) :
    (dot_S5000x16_S16x64_S5000x64_1_0_0_1_n_n.lhsIdx i q 0).val = (i 0).val := by
  unfold DotDims.lhsIdx
  rw [dif_neg (show ¬(0 : Fin S5000x16.rank) ∈ dot_S5000x16_S16x64_S5000x64_1_0_0_1_n_n.lhsBatch by decide),
    dif_pos (show (0 : Fin S5000x16.rank) ∈ dot_S5000x16_S16x64_S5000x64_1_0_0_1_n_n.lhsNonContracting by decide)]
  rfl
private theorem lhsA_1 (i : S5000x64.Idx) (q : dot_S5000x16_S16x64_S5000x64_1_0_0_1_n_n.contr.Idx) :
    (dot_S5000x16_S16x64_S5000x64_1_0_0_1_n_n.lhsIdx i q 1).val = (q ⟨0, by decide⟩).val :=
  dot_S5000x16_S16x64_S5000x64_1_0_0_1_n_n.lhsIdx_val_of_single rfl i q
private theorem rhsA_0 (i : S5000x64.Idx) (q : dot_S5000x16_S16x64_S5000x64_1_0_0_1_n_n.contr.Idx) :
    (dot_S5000x16_S16x64_S5000x64_1_0_0_1_n_n.rhsIdx i q 0).val = (q ⟨0, by decide⟩).val :=
  dot_S5000x16_S16x64_S5000x64_1_0_0_1_n_n.rhsIdx_val_of_single rfl i q
private theorem rhsA_1 (i : S5000x64.Idx) (q : dot_S5000x16_S16x64_S5000x64_1_0_0_1_n_n.contr.Idx) :
    (dot_S5000x16_S16x64_S5000x64_1_0_0_1_n_n.rhsIdx i q 1).val = (i 1).val := by
  unfold DotDims.rhsIdx
  rw [dif_neg (show ¬(1 : Fin S16x64.rank) ∈ dot_S5000x16_S16x64_S5000x64_1_0_0_1_n_n.rhsBatch by decide),
    dif_pos (show (1 : Fin S16x64.rank) ∈ dot_S5000x16_S16x64_S5000x64_1_0_0_1_n_n.rhsNonContracting by decide)]
  rfl

/-- A [5000, 16] block times a [16, 64] matrix, at (r, k). -/
private theorem mmA_apply (l : FVec Ideal S5000x16 .f32) (w : FVec Ideal S16x64 .f32) (r : Fin 5000) (k : Fin 64) :
    matmul (F := Ideal) dot_S5000x16_S16x64_S5000x64_1_0_0_1_n_n none l w (constant (F := Ideal) S5000x64 .f32 0x00000000#32) (ix2 r k)
      = ∑ a : Fin 16, l (ix2 r a) * w (ix2 a k) := by
  simp only [matmul]
  rw [Ideal.matmul_constant_zero_apply, ← Equiv.sum_comp (contrEquiv1 dot_S5000x16_S16x64_S5000x64_1_0_0_1_n_n 16 rfl rfl).symm]
  refine Finset.sum_congr rfl fun a _ => ?_
  have hk := contrEquiv1_symm_val dot_S5000x16_S16x64_S5000x64_1_0_0_1_n_n 16 rfl rfl a
  have el : dot_S5000x16_S16x64_S5000x64_1_0_0_1_n_n.lhsIdx (ix2 r k) ((contrEquiv1 dot_S5000x16_S16x64_S5000x64_1_0_0_1_n_n 16 rfl rfl).symm a) = ix2 r a :=
    funext fun ax => Fin.ext (by
      match ax with
      | ⟨0, _⟩ => exact lhsA_0 _ _
      | ⟨1, _⟩ => exact (lhsA_1 _ _).trans hk)
  have er : dot_S5000x16_S16x64_S5000x64_1_0_0_1_n_n.rhsIdx (ix2 r k) ((contrEquiv1 dot_S5000x16_S16x64_S5000x64_1_0_0_1_n_n 16 rfl rfl).symm a) = ix2 a k :=
    funext fun ax => Fin.ext (by
      match ax with
      | ⟨0, _⟩ => exact (rhsA_0 _ _).trans hk
      | ⟨1, _⟩ => exact rhsA_1 _ _)
  rw [el, er]

private theorem lhsB_0 (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide),
    dif_pos (show (0 : Fin S5000x64.rank) ∈ dot_S5000x64_S64x16_S5000x16_1_0_0_1_n_n.lhsNonContracting by decide)]
  rfl
private theorem lhsB_1 (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q
private theorem rhsB_0 (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q
private theorem rhsB_1 (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide),
    dif_pos (show (1 : Fin S64x16.rank) ∈ dot_S5000x64_S64x16_S5000x16_1_0_0_1_n_n.rhsNonContracting by decide)]
  rfl

/-- The [5000, 64] hidden block times the [64, 16] matrix, at (r, j). -/
private theorem mmB_apply (l : FVec Ideal S5000x64 .f32) (w : FVec Ideal S64x16 .f32) (r : Fin 5000) (k : Fin 16) :
    matmul (F := Ideal) dot_S5000x64_S64x16_S5000x16_1_0_0_1_n_n none l w (constant (F := Ideal) S5000x16 .f32 0x00000000#32) (ix2 r k)
      = ∑ a : Fin 64, l (ix2 r a) * w (ix2 a k) := by
  simp only [matmul]
  rw [Ideal.matmul_constant_zero_apply, ← Equiv.sum_comp (contrEquiv1 dot_S5000x64_S64x16_S5000x16_1_0_0_1_n_n 64 rfl rfl).symm]
  refine Finset.sum_congr rfl fun a _ => ?_
  have hk := contrEquiv1_symm_val dot_S5000x64_S64x16_S5000x16_1_0_0_1_n_n 64 rfl rfl a
  have el : dot_S5000x64_S64x16_S5000x16_1_0_0_1_n_n.lhsIdx (ix2 r k) ((contrEquiv1 dot_S5000x64_S64x16_S5000x16_1_0_0_1_n_n 64 rfl rfl).symm a) = ix2 r a :=
    funext fun ax => Fin.ext (by
      match ax with
      | ⟨0, _⟩ => exact lhsB_0 _ _
      | ⟨1, _⟩ => exact (lhsB_1 _ _).trans hk)
  have er : dot_S5000x64_S64x16_S5000x16_1_0_0_1_n_n.rhsIdx (ix2 r k) ((contrEquiv1 dot_S5000x64_S64x16_S5000x16_1_0_0_1_n_n 64 rfl rfl).symm a) = ix2 a k :=
    funext fun ax => Fin.ext (by
      match ax with
      | ⟨0, _⟩ => exact (rhsB_0 _ _).trans hk
      | ⟨1, _⟩ => exact rhsB_1 _ _)
  rw [el, er]

/-- The body's stored value, at the exact instance, is the two-input network of the blocks it loaded. -/
theorem pay_eq (x0 : Vec Ideal S5000x16 .f32) (x2 : Vec Ideal S16x64 .f32) (x1 : Vec Ideal S5000x16 .f32)
    (x3 : Vec Ideal S16x64 .f32) (x4 : Vec Ideal S1x64 .f32) (x5 : Vec Ideal S64x16 .f32) (x6 : Vec Ideal S1x16 .f32) :
    k1_pay1 (F := Ideal) x0 x2 x1 x3 x4 x5 x6 = mlp2 (R := 5000) x0 x1 x2 x3 x4 x5 x6 := by
  funext i
  obtain ⟨r, j, rfl⟩ : ∃ (r : Fin 5000) (j : Fin 16), i = ix2 r j := ⟨i 0, i 1, eq_ix2 i⟩
  rw [mlp2_apply]
  unfold k1_pay1 mlp2At layer2At dotRow
  simp only [shapeCast_self]
  rw [addf_apply, mmB_apply, broadcastTo_1b_ab_apply]
  refine congrArg (· + x6 (ix2 0 j)) (Finset.sum_congr rfl fun k _ => ?_)
  rw [maximumf_apply, addf_apply, addf_apply, mmA_apply, mmA_apply, broadcastTo_1b_ab_apply, broadcast_apply]
  show max _ (Ideal.ofBits .f32 0x00000000#32) * _ = _
  rw [Ideal.ofBits_zero_f32]

/-! ## The region's windows -/

private theorem hz : (![0, 0] : Fin 2 → Nat) = fun _ => 0 := funext fun a => by fin_cases a <;> rfl

/-- The printed index maps, decided over the grid: the two row windows and the output window are at block (t, 0) at
    point t; the five weight windows stay at block (0, 0). -/
private theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- A grid point's rows are rows of the array. -/
private theorem rows_le (t : Fin cfg1.N) : (t.val + 1) * 5000 ≤ 50000 := by
  have h : t.val < 10 := Nat.lt_of_lt_of_eq t.isLt N_1
  omega

variable (V : (c : Dev nD) → (b : Ref sig .tc) → Buf (Elt Ideal) ((c : Thread nD τ).loc b))

/-- Window 0's block at point t is rows 5000 t, …, 5000 t + 4999 of the node features. -/
private theorem blk0 (c : Dev nD) (t : Fin cfg1.N) :
    (iblk1 (F := Ideal) V c 0 t : A2 5000 16) = rowBlock (R := 50000) (R' := 5000) t.val (rows_le t) (V c main_arg0) := by
  funext y
  obtain ⟨r, j, rfl⟩ : ∃ (r : Fin 5000) (j : Fin 16), y = ix2 r j := ⟨y 0, y 1, eq_ix2 y⟩
  rw [rowBlock_apply]
  show V c main_arg0 (((cfg1.win 0).blk t).view.emb (ix2 r j)) = _
  congr 1
  funext a
  apply Fin.ext
  match a with
  | ⟨0, _⟩ =>
    show win1_0.index t (0 : Fin 2) * 5000 + 1 * r.val = t.val * 5000 + r.val
    rw [(idx_facts t).1.1]; omega
  | ⟨1, _⟩ =>
    show win1_0.index t (1 : Fin 2) * 16 + 1 * j.val = j.val
    rw [(idx_facts t).1.2]; omega

/-- Window 1's block at point t is the same rows of the aggregated messages. -/
private theorem blk1 (c : Dev nD) (t : Fin cfg1.N) :
    (iblk1 (F := Ideal) V c 1 t : A2 5000 16) = rowBlock (R := 50000) (R' := 5000) t.val (rows_le t) (V c main_v14) := by
  funext y
  obtain ⟨r, j, rfl⟩ : ∃ (r : Fin 5000) (j : Fin 16), y = ix2 r j := ⟨y 0, y 1, eq_ix2 y⟩
  rw [rowBlock_apply]
  show V c main_v14 (((cfg1.win 1).blk t).view.emb (ix2 r j)) = _
  congr 1
  funext a
  apply Fin.ext
  match a with
  | ⟨0, _⟩ =>
    show win1_1.index t (0 : Fin 2) * 5000 + 1 * r.val = t.val * 5000 + r.val
    rw [(idx_facts t).2.1.1]; omega
  | ⟨1, _⟩ =>
    show win1_1.index t (1 : Fin 2) * 16 + 1 * j.val = j.val
    rw [(idx_facts t).2.1.2]; omega

/-- Window 2's block is the whole first weight band. -/
private theorem blk2 (c : Dev nD) (t : Fin cfg1.N) :
    (iblk1 (F := Ideal) V c 2 t : A2 16 64) = V c main_v15 := by
  funext y
  obtain ⟨r, j, rfl⟩ : ∃ (r : Fin 16) (j : Fin 64), y = ix2 r j := ⟨y 0, y 1, eq_ix2 y⟩
  show V c main_v15 (((cfg1.win 2).blk t).view.emb (ix2 r j)) = V c main_v15 (ix2 r j)
  congr 1
  funext a
  apply Fin.ext
  match a with
  | ⟨0, _⟩ =>
    show win1_2.index t (0 : Fin 2) * 16 + 1 * r.val = r.val
    rw [(idx_facts t).2.2.1.1]; omega
  | ⟨1, _⟩ =>
    show win1_2.index t (1 : Fin 2) * 64 + 1 * j.val = j.val
    rw [(idx_facts t).2.2.1.2]; omega

/-- Window 3's block is the whole second weight band. -/
private theorem blk3 (c : Dev nD) (t : Fin cfg1.N) :
    (iblk1 (F := Ideal) V c 3 t : A2 16 64) = V c main_v16 := by
  funext y
  obtain ⟨r, j, rfl⟩ : ∃ (r : Fin 16) (j : Fin 64), y = ix2 r j := ⟨y 0, y 1, eq_ix2 y⟩
  show V c main_v16 (((cfg1.win 3).blk t).view.emb (ix2 r j)) = V c main_v16 (ix2 r j)
  congr 1
  funext a
  apply Fin.ext
  match a with
  | ⟨0, _⟩ =>
    show win1_3.index t (0 : Fin 2) * 16 + 1 * r.val = r.val
    rw [(idx_facts t).2.2.2.1.1]; omega
  | ⟨1, _⟩ =>
    show win1_3.index t (1 : Fin 2) * 64 + 1 * j.val = j.val
    rw [(idx_facts t).2.2.2.1.2]; omega

/-- Window 4's block is the whole first bias row. -/
private theorem blk4 (c : Dev nD) (t : Fin cfg1.N) :
    (iblk1 (F := Ideal) V c 4 t : A2 1 64) = V c main_v17 := by
  funext y
  obtain ⟨r, j, rfl⟩ : ∃ (r : Fin 1) (j : Fin 64), y = ix2 r j := ⟨y 0, y 1, eq_ix2 y⟩
  show V c main_v17 (((cfg1.win 4).blk t).view.emb (ix2 r j)) = V c main_v17 (ix2 r j)
  congr 1
  funext a
  apply Fin.ext
  match a with
  | ⟨0, _⟩ =>
    show win1_4.index t (0 : Fin 2) * 1 + 1 * r.val = r.val
    rw [(idx_facts t).2.2.2.2.1.1]; omega
  | ⟨1, _⟩ =>
    show win1_4.index t (1 : Fin 2) * 64 + 1 * j.val = j.val
    rw [(idx_facts t).2.2.2.2.1.2]; omega

/-- Window 5's block is the whole second weight matrix. -/
private theorem blk5 (c : Dev nD) (t : Fin cfg1.N) :
    (iblk1 (F := Ideal) V c 5 t : A2 64 16) = V c main_arg9 := by
  funext y
  obtain ⟨r, j, rfl⟩ : ∃ (r : Fin 64) (j : Fin 16), y = ix2 r j := ⟨y 0, y 1, eq_ix2 y⟩
  show V c main_arg9 (((cfg1.win 5).blk t).view.emb (ix2 r j)) = V c main_arg9 (ix2 r j)
  congr 1
  funext a
  apply Fin.ext
  match a with
  | ⟨0, _⟩ =>
    show win1_5.index t (0 : Fin 2) * 64 + 1 * r.val = r.val
    rw [(idx_facts t).2.2.2.2.2.1.1]; omega
  | ⟨1, _⟩ =>
    show win1_5.index t (1 : Fin 2) * 16 + 1 * j.val = j.val
    rw [(idx_facts t).2.2.2.2.2.1.2]; omega

/-- Window 6's block is the whole second bias row. -/
private theorem blk6 (c : Dev nD) (t : Fin cfg1.N) :
    (iblk1 (F := Ideal) V c 6 t : A2 1 16) = V c main_v18 := by
  funext y
  obtain ⟨r, j, rfl⟩ : ∃ (r : Fin 1) (j : Fin 16), y = ix2 r j := ⟨y 0, y 1, eq_ix2 y⟩
  show V c main_v18 (((cfg1.win 6).blk t).view.emb (ix2 r j)) = V c main_v18 (ix2 r j)
  congr 1
  funext a
  apply Fin.ext
  match a with
  | ⟨0, _⟩ =>
    show win1_6.index t (0 : Fin 2) * 1 + 1 * r.val = r.val
    rw [(idx_facts t).2.2.2.2.2.2.1.1]; omega
  | ⟨1, _⟩ =>
    show win1_6.index t (1 : Fin 2) * 16 + 1 * j.val = j.val
    rw [(idx_facts t).2.2.2.2.2.2.1.2]; omega

/-! ## From the blocks to the array -/

/-- Equal operands give equal networks. -/
private theorem mlp2_congr {R : Nat} {A A' B B' : A2 R 16} {wa wa' wb wb' : A2 16 64} {b1 b1' : A2 1 64}
    {w2 w2' : A2 64 16} {b2 b2' : A2 1 16} (hA : A = A') (hB : B = B') (hwa : wa = wa') (hwb : wb = wb')
    (hb1 : b1 = b1') (hw2 : w2 = w2') (hb2 : b2 = b2') :
    mlp2 A B wa wb b1 w2 b2 = mlp2 A' B' wa' wb' b1' w2' b2' := by
  subst hA hB hwa hwb hb1 hw2 hb2; rfl

/-- The network of point t's blocks is rows 5000 t, …, 5000 t + 4999 of the network of the arrays. -/
private theorem net_blocks (c : Dev nD) (t : Fin cfg1.N) :
    mlp2 (R := 5000) (iblk1 (F := Ideal) V c 0 t) (iblk1 (F := Ideal) V c 1 t) (iblk1 (F := Ideal) V c 2 t)
        (iblk1 (F := Ideal) V c 3 t) (iblk1 (F := Ideal) V c 4 t) (iblk1 (F := Ideal) V c 5 t) (iblk1 (F := Ideal) V c 6 t)
      = rowBlock (R := 50000) (R' := 5000) t.val (rows_le t) (mlp2 (R := 50000) (V c main_arg0) (V c main_v14) (V c main_v15) (V c main_v16) (V c main_v17) (V c main_arg9) (V c main_v18)) :=
  (mlp2_congr (blk0 V c t) (blk1 V c t) (blk2 V c t) (blk3 V c t) (blk4 V c t) (blk5 V c t) (blk6 V c t)).trans
    (mlp2_rowBlock t.val (rows_le t) _ _ _ _ _ _ _)

/-- The output window's blocks are whole: what is written back of a staging buffer is all of it. -/
private theorem cut7 (t : Fin cfg1.N) (X : A2 5000 16) : ((cfg1.win 7).cut (grid1.coords t) X : A2 5000 16) = X := by
  funext y
  obtain ⟨r, j, rfl⟩ : ∃ (r : Fin 5000) (j : Fin 16), y = ix2 r j := ⟨y 0, y 1, eq_ix2 y⟩
  show X ((cfg1.win 7).xinj (grid1.coords t) (ix2 r j)) = X (ix2 r j)
  exact congrArg X (funext fun a => Fin.ext (by
    match a with
    | ⟨0, _⟩ => rfl
    | ⟨1, _⟩ => rfl))

/-- The output window's block at point t, read off an [N, 16] array, is the array's rows 5000 t, …, 5000 t + 4999. -/
private theorem read7 (t : Fin cfg1.N) (Y : A2 50000 16) :
    (((cfg1.win 7).blk t).view.read (Elt Ideal) Y : A2 5000 16) = rowBlock (R := 50000) (R' := 5000) t.val (rows_le t) Y := by
  funext y
  obtain ⟨r, j, rfl⟩ : ∃ (r : Fin 5000) (j : Fin 16), y = ix2 r j := ⟨y 0, y 1, eq_ix2 y⟩
  rw [rowBlock_apply]
  show Y (((cfg1.win 7).blk t).view.emb (ix2 r j)) = _
  congr 1
  funext a
  apply Fin.ext
  match a with
  | ⟨0, _⟩ =>
    show win1_7.index t (0 : Fin 2) * 5000 + 1 * r.val = t.val * 5000 + r.val
    rw [(idx_facts t).2.2.2.2.2.2.2.1]; omega
  | ⟨1, _⟩ =>
    show win1_7.index t (1 : Fin 2) * 16 + 1 * j.val = j.val
    rw [(idx_facts t).2.2.2.2.2.2.2.2]; omega

/-- What point t writes back is its block of the network of the arrays. -/
private theorem flushed_eq (c : Dev nD) (t : Fin cfg1.N) :
    (dat1 (F := Ideal) V c).flushed 7 t
      = ((cfg1.win 7).blk t).view.read (Elt Ideal) (mlp2 (R := 50000) (V c main_arg0) (V c main_v14) (V c main_v15) (V c main_v16) (V c main_v17) (V c main_arg9) (V c main_v18)) := by
  show (cfg1.win 7).cut (grid1.coords t) ((dat1 (F := Ideal) V c).after 7 t) = _
  rw [after1_7]
  unfold out1_7
  rw [View.canon_unit_zero hz]
  simp only [View.ld_unit_zero (S := S5000x16) hz, View.ld_unit_zero (S := S16x64) hz, View.ld_unit_zero (S := S1x64) hz,
    View.ld_unit_zero (S := S64x16) hz, View.ld_unit_zero (S := S1x16) hz]
  rw [pay_eq, net_blocks]
  exact (cut7 t _).trans (read7 t _).symm

/-- An index of the output array is in point t's block iff each coordinate is in the block's range on its axis. -/
private theorem mem_blk (t : Fin cfg1.N) (i : S50000x16.Idx) :
    i ∈ ((cfg1.win 7).blk t).view.set
      ↔ ∀ a : Fin 2, win1_7.index t a * S5000x16.size a ≤ (i a).val ∧ (i a).val < win1_7.index t a * S5000x16.size a + S5000x16.size a := by
  show i ∈ ((View.whole main_v19).slice (win1_7.rect t)).set ↔ _
  rw [View.set_slice_whole, Rect.mem_set_unit]
  exact Iff.rfl

/-- The ten blocks tile the output array: row r is in the block of point r / 5000. -/
private theorem covered (i : S50000x16.Idx) :
    ∃ t : Fin cfg1.N, (cfg1.win 7).flush t = true ∧ i ∈ ((cfg1.win 7).blk t).view.set := by
  have hi0 : (i 0).val < 50000 := (i 0).isLt
  have hi1 : (i 1).val < 16 := (i 1).isLt
  have hN : cfg1.N = 10 := N_1
  refine ⟨⟨(i 0).val / 5000, by rw [hN]; omega⟩, flush1_7 _, ?_⟩
  rw [mem_blk]
  intro a
  match a with
  | ⟨0, _⟩ =>
    show win1_7.index _ (0 : Fin 2) * 5000 ≤ (i 0).val ∧ (i 0).val < win1_7.index _ (0 : Fin 2) * 5000 + 5000
    rw [(idx_facts _).2.2.2.2.2.2.2.1]
    show (i 0).val / 5000 * 5000 ≤ (i 0).val ∧ (i 0).val < (i 0).val / 5000 * 5000 + 5000
    omega
  | ⟨1, _⟩ =>
    show win1_7.index _ (1 : Fin 2) * 16 ≤ (i 1).val ∧ (i 1).val < win1_7.index _ (1 : Fin 2) * 16 + 16
    rw [(idx_facts _).2.2.2.2.2.2.2.2]
    omega

/-- THE OUTPUT ARRAY after the region: the two-input network of the arrays as the region found them. -/
theorem final1 (c : Dev nD) :
    (dat1 (F := Ideal) V c).arrAt 7 cfg1.N
      = mlp2 (R := 50000) (V c main_arg0) (V c main_v14) (V c main_v15) (V c main_v16) (V c main_v17) (V c main_arg9)
          (V c main_v18) := by
  exact (dat1 (F := Ideal) V c).arrAt_eq_of_cover 7 _ (fun t _ => flushed_eq V c t) covered

end Cert.KernelIdeal.Node

end
-- ==== Proof.RefValue.lean ====
/-
  THE REFERENCE, AS A VALUE.

  The reference gathers the destination and source rows of x, joins them with the edge features into an [E, 48] array,
  and applies a two-layer perceptron with a rectifier (one [48, 64] matrix, a bias, a [64, 16] matrix, a bias): the edge
  result. It scatter-adds the edge result's rows into zeros at the destination indices, joins the node features with
  that aggregate into an [N, 32] array, and applies a second such perceptron: the node result. Read one operation at a
  time at the exact instance, each perceptron is the one-matrix network dense1 of its joined input.
-/
import proofs.«401622_j17970143166937_2_alg».proof.Proof.Gen.ReferenceIdeal.Run
import proofs.«401622_j17970143166937_2_alg».proof.Proof.Gen.ReferenceIdeal.Read
import proofs.«401622_j17970143166937_2_alg».proof.Proof.MlpSpec

noncomputable section

open scoped BigOperators

namespace Cert.ReferenceIdeal.RefValue

open Cert.ReferenceIdeal Cert.ReferenceIdeal.Gen Cert.ReferenceIdeal.Read Cert.Mlp
open Idealize.ShloMosaic Idealize.ShloMosaic.ValueIdx Idealize.ShloMosaic.TcCoe Idealize.SL.Sem

/-! ## The edge perceptron, one operation at a time

  At the output position (r, j) the second product reads the hidden array at (r, k) and the second matrix at (k, j);
  at the hidden position (r, k) the first product reads the joined array at (r, a) and the first matrix at (a, k); the
  two bias rows, broadcast down the rows, read the bias vectors at j and at k. -/

private theorem edge_lhs2 (r : Fin 1600000) (j : Fin 16) (k : Fin 64) : lidx_main_v24 (ix2 r j) k = ix2 r k :=
  funext fun a => Fin.ext (by match a with | ⟨0, _⟩ => rfl | ⟨1, _⟩ => rfl)

private theorem edge_rhs2 (r : Fin 1600000) (j : Fin 16) (k : Fin 64) : ridx_main_v24 (ix2 r j) k = ix2 k j :=
  funext fun a => Fin.ext (by match a with | ⟨0, _⟩ => rfl | ⟨1, _⟩ => rfl)

private theorem edge_bias2 (r : Fin 1600000) (j : Fin 16) : idx_main_v25 (idx_main_v26 (ix2 r j)) = ix1 j :=
  funext fun a => Fin.ext (by match a with | ⟨0, _⟩ => rfl)

private theorem edge_lhs1 (r : Fin 1600000) (k : Fin 64) (a : Fin 48) : lidx_main_v19 (ix2 r k) a = ix2 r a :=
  funext fun b => Fin.ext (by match b with | ⟨0, _⟩ => rfl | ⟨1, _⟩ => rfl)

private theorem edge_rhs1 (r : Fin 1600000) (k : Fin 64) (a : Fin 48) : ridx_main_v19 (ix2 r k) a = ix2 a k :=
  funext fun b => Fin.ext (by match b with | ⟨0, _⟩ => rfl | ⟨1, _⟩ => rfl)

private theorem edge_bias1 (r : Fin 1600000) (k : Fin 64) : idx_main_v20 (idx_main_v21 (ix2 r k)) = ix1 k :=
  funext fun a => Fin.ext (by match a with | ⟨0, _⟩ => rfl)

/-- The hidden array of the edge perceptron at (r, k): the rectified first product plus bias. -/
private theorem edge_hidden (x0 : FVec Ideal S50000x16 .f32) (x1 : IVec S2x1600000 32) (x2 : FVec Ideal S1600000x16 .f32)
    (x3 : FVec Ideal S48x64 .f32) (x4 : FVec Ideal S64 .f32) (r : Fin 1600000) (k : Fin 64) :
    val_main_v23 (F := Ideal) x0 x1 x2 x3 x4 (ix2 r k)
      = max ((∑ a : Fin 48, val_main_v18 (F := Ideal) x0 x1 x2 (ix2 r a) * x3 (ix2 a k)) + x4 (ix1 k)) 0 := by
  rw [val_main_v23_apply, val_main_v22_apply, val_main_v19_apply, val_main_v21_apply, val_main_v20_apply,
    val_main_call0_v0_apply, val_main_call0_cst_apply, edge_bias1]
  generalize val_main_v18 (F := Ideal) x0 x1 x2 = X
  simp only [edge_lhs1, edge_rhs1]
  rw [Ideal.maximumf_def, Ideal.addf_def, Ideal.ofBits_def, Ideal.ofBits_zero_f32]

/-- The edge result is the one-matrix network of the joined [E, 48] array. -/
theorem edge_eq (x0 : FVec Ideal S50000x16 .f32) (x1 : IVec S2x1600000 32) (x2 : FVec Ideal S1600000x16 .f32)
    (x3 : FVec Ideal S48x64 .f32) (x4 : FVec Ideal S64 .f32) (x5 : FVec Ideal S64x16 .f32) (x6 : FVec Ideal S16 .f32) :
    val_main_v27 (F := Ideal) x0 x1 x2 x3 x4 x5 x6
      = dense1 (R := 1600000) (K := 48) (val_main_v18 (F := Ideal) x0 x1 x2) x3 x4 x5 x6 := by
  funext i
  obtain ⟨r, j, rfl⟩ : ∃ (r : Fin 1600000) (j : Fin 16), i = ix2 r j := ⟨i 0, i 1, eq_ix2 i⟩
  rw [dense1_apply]
  unfold dense1At layer2At dotRow
  rw [val_main_v27_apply, val_main_v24_apply, val_main_v26_apply, val_main_v25_apply, edge_bias2, Ideal.addf_def]
  refine congrArg (· + x6 (ix1 j)) (Finset.sum_congr rfl fun k _ => ?_)
  rw [edge_lhs2, edge_rhs2, edge_hidden]

/-! ## The node perceptron, one operation at a time

  The same reading one level up: 50000 rows, a joined array of 32 columns, its own two matrices and bias vectors. -/

private theorem node_lhs2 (r : Fin 50000) (j : Fin 16) (k : Fin 64) : lidx_main_v37 (ix2 r j) k = ix2 r k :=
  funext fun a => Fin.ext (by match a with | ⟨0, _⟩ => rfl | ⟨1, _⟩ => rfl)

private theorem node_rhs2 (r : Fin 50000) (j : Fin 16) (k : Fin 64) : ridx_main_v37 (ix2 r j) k = ix2 k j :=
  funext fun a => Fin.ext (by match a with | ⟨0, _⟩ => rfl | ⟨1, _⟩ => rfl)

private theorem node_bias2 (r : Fin 50000) (j : Fin 16) : idx_main_v38 (idx_main_v39 (ix2 r j)) = ix1 j :=
  funext fun a => Fin.ext (by match a with | ⟨0, _⟩ => rfl)

private theorem node_lhs1 (r : Fin 50000) (k : Fin 64) (a : Fin 32) : lidx_main_v32 (ix2 r k) a = ix2 r a :=
  funext fun b => Fin.ext (by match b with | ⟨0, _⟩ => rfl | ⟨1, _⟩ => rfl)

private theorem node_rhs1 (r : Fin 50000) (k : Fin 64) (a : Fin 32) : ridx_main_v32 (ix2 r k) a = ix2 a k :=
  funext fun b => Fin.ext (by match b with | ⟨0, _⟩ => rfl | ⟨1, _⟩ => rfl)

private theorem node_bias1 (r : Fin 50000) (k : Fin 64) : idx_main_v33 (idx_main_v34 (ix2 r k)) = ix1 k :=
  funext fun a => Fin.ext (by match a with | ⟨0, _⟩ => rfl)

/-- The hidden array of the node perceptron at (r, k): the rectified first product plus bias. -/
private theorem node_hidden (x0 : FVec Ideal S50000x16 .f32) (x1 : IVec S2x1600000 32) (x2 : FVec Ideal S1600000x16 .f32)
    (x3 : FVec Ideal S48x64 .f32) (x4 : FVec Ideal S64 .f32) (x5 : FVec Ideal S64x16 .f32) (x6 : FVec Ideal S16 .f32)
    (x7 : FVec Ideal S32x64 .f32) (x8 : FVec Ideal S64 .f32) (r : Fin 50000) (k : Fin 64) :
    val_main_v36 (F := Ideal) x0 x1 x2 x3 x4 x5 x6 x7 x8 (ix2 r k)
      = max ((∑ a : Fin 32, val_main_v31 (F := Ideal) x0 x1 x2 x3 x4 x5 x6 (ix2 r a) * x7 (ix2 a k)) + x8 (ix1 k)) 0 := by
  rw [val_main_v36_apply, val_main_v35_apply, val_main_v32_apply, val_main_v34_apply, val_main_v33_apply,
    val_main_call1_v0_apply, val_main_call1_cst_apply, node_bias1]
  generalize val_main_v31 (F := Ideal) x0 x1 x2 x3 x4 x5 x6 = X
  simp only [node_lhs1, node_rhs1]
  rw [Ideal.maximumf_def, Ideal.addf_def, Ideal.ofBits_def, Ideal.ofBits_zero_f32]

/-- The node result is the one-matrix network of the joined [N, 32] array. -/
theorem node_eq (x0 : FVec Ideal S50000x16 .f32) (x1 : IVec S2x1600000 32) (x2 : FVec Ideal S1600000x16 .f32)
    (x3 : FVec Ideal S48x64 .f32) (x4 : FVec Ideal S64 .f32) (x5 : FVec Ideal S64x16 .f32) (x6 : FVec Ideal S16 .f32)
    (x7 : FVec Ideal S32x64 .f32) (x8 : FVec Ideal S64 .f32) (x9 : FVec Ideal S64x16 .f32) (x10 : FVec Ideal S16 .f32) :
    val_main_v40 (F := Ideal) x0 x1 x2 x3 x4 x5 x6 x7 x8 x9 x10
      = dense1 (R := 50000) (K := 32) (val_main_v31 (F := Ideal) x0 x1 x2 x3 x4 x5 x6) x7 x8 x9 x10 := by
  funext i
  obtain ⟨r, j, rfl⟩ : ∃ (r : Fin 50000) (j : Fin 16), i = ix2 r j := ⟨i 0, i 1, eq_ix2 i⟩
  rw [dense1_apply]
  unfold dense1At layer2At dotRow
  rw [val_main_v40_apply, val_main_v37_apply, val_main_v39_apply, val_main_v38_apply, node_bias2, Ideal.addf_def]
  refine congrArg (· + x10 (ix1 j)) (Finset.sum_congr rfl fun k _ => ?_)
  rw [node_lhs2, node_rhs2, node_hidden]

end Cert.ReferenceIdeal.RefValue

end
-- ==== Proof.lean ====
/-
  THE CERTIFICATE OF AN INTERACTION-NETWORK LAYER: a Pallas implementation against its jnp reference, over the
  extended reals.

  Both programs compute, from node features x : [N, 16], an edge list [2, E] (row 0 the sources, row 1 the destinations),
  edge features e : [E, 16] and the weights of two two-layer perceptrons with a rectifier,
      e' = fR ([x[dst] | x[src] | e]),     agg = the sum over the edges into node n of e',     x' = fO ([x | agg]),
  and return (x', e').

  The reference multiplies each joined array with one first-layer matrix. The kernel program splits that matrix into
  16-row bands on the host, runs each perceptron as a kernel region over row blocks (the products of the parts with
  their bands added up), and keeps the two row gathers and the scatter-add on the host. The split product is the
  one-matrix product because a sum over 48 (32) positions is the sum of the sums over its three (two) ranges: only
  commutativity and associativity of addition, so no finiteness is used.

  One difference is not arithmetic: the kernel program's row gather replaces a row whose index is outside [0, N - 1]
  by a constant row, while the reference's clamps the index. The precondition therefore says, beside finiteness, that
  every entry of the edge list is a row number of x (0 ≤ entry < N); then the range test is true on every row and the two
  gathers are one. The scatter-add is the same operation on both sides, at the same indices.

  The three frames are the generated ones (the reference's: its generated run with the results dropped); the ideal pass
  rewrote nothing, so there is nothing to preserve.
-/
import proofs.«401622_j17970143166937_2_alg».proof.Defs
import proofs.«401622_j17970143166937_2_alg».proof.Proof.Gen.Kernel
import proofs.«401622_j17970143166937_2_alg».proof.Proof.Gen.Kernel.Skeleton
import proofs.«401622_j17970143166937_2_alg».proof.Proof.Gen.Kernel.Launch
import proofs.«401622_j17970143166937_2_alg».proof.Proof.Gen.Kernel.Points
import proofs.«401622_j17970143166937_2_alg».proof.Proof.Gen.Kernel.Frame
import proofs.«401622_j17970143166937_2_alg».proof.Proof.Gen.KernelIdeal
import proofs.«401622_j17970143166937_2_alg».proof.Proof.Gen.KernelIdeal.Skeleton
import proofs.«401622_j17970143166937_2_alg».proof.Proof.Gen.KernelIdeal.Launch
import proofs.«401622_j17970143166937_2_alg».proof.Proof.Gen.KernelIdeal.Points
import proofs.«401622_j17970143166937_2_alg».proof.Proof.Gen.KernelIdeal.Frame
import proofs.«401622_j17970143166937_2_alg».proof.Proof.Gen.ReferenceIdeal
import proofs.«401622_j17970143166937_2_alg».proof.Proof.Gen.Pre_finite_inputs
import proofs.«401622_j17970143166937_2_alg».proof.Proof.Gen.ReferenceIdeal.Run
import proofs.«401622_j17970143166937_2_alg».proof.Proof.Gen.ReferenceIdeal.Read
import proofs.«401622_j17970143166937_2_alg».proof.Proof.MlpSpec
import proofs.«401622_j17970143166937_2_alg».proof.Proof.KernelRun
import proofs.«401622_j17970143166937_2_alg».proof.Proof.HostWalk
import proofs.«401622_j17970143166937_2_alg».proof.Proof.TakeInRange
import proofs.«401622_j17970143166937_2_alg».proof.Proof.PreRange
import proofs.«401622_j17970143166937_2_alg».proof.Proof.EdgeRegionValue
import proofs.«401622_j17970143166937_2_alg».proof.Proof.NodeRegionValue
import proofs.«401622_j17970143166937_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal Cert.KernelIdeal.Gen Cert.KernelIdeal.Walk Cert.Mlp

/-! ## The two results as functions of the arguments -/

/-- The edge result: the split three-input network of the taken destination rows, the taken source rows and the edge
    features, with the bands of the first matrix and the bias rows. -/
def edgeVal (x0 : FVec Ideal S50000x16 .f32) (x1 : IVec S2x1600000 32) (x2 : FVec Ideal S1600000x16 .f32)
    (x3 : FVec Ideal S48x64 .f32) (x4 : FVec Ideal S64 .f32) (x5 : FVec Ideal S64x16 .f32) (x6 : FVec Ideal S16 .f32) :
    FVec Ideal S1600000x16 .f32 :=
  mlp3 (R := 1600000) (takeFill (F := Ideal) x0 (idxRow1 x1)) (takeFill (F := Ideal) x0 (idxRow0 x1)) x2
    (extractStridedSlice S16x64 ![0, 0] x3 slices_S48x64_S16x64_0_0)
    (extractStridedSlice S16x64 ![16, 0] x3 slices_S48x64_S16x64_16_0)
    (extractStridedSlice S16x64 ![32, 0] x3 slices_S48x64_S16x64_32_0)
    (shapeCast S1x64 x4 shapeCasts_S64_S1x64) x5 (shapeCast S1x16 x6 shapeCasts_S16_S1x16)

/-- The aggregate: the edge result's rows scatter-added into zeros at the destination indices. -/
def aggVal (x1 : IVec S2x1600000 32) (ev : FVec Ideal S1600000x16 .f32) : FVec Ideal S50000x16 .f32 :=
  Host.scatterAdd (F := Ideal) scatter_S50000x16_S1600000x1_S1600000x16_1_0_0_1
    (broadcastInDim S50000x16 ![] bcast_S_S50000x16 (constant (F := Ideal) S_ .f32 0x00000000#32))
    (idxCol (idxRow1 x1)) ev

/-- The node result: the split two-input network of the node features and the aggregate. -/
def nodeVal (x0 : FVec Ideal S50000x16 .f32) (x1 : IVec S2x1600000 32) (ev : FVec Ideal S1600000x16 .f32)
    (x7 : FVec Ideal S32x64 .f32) (x8 : FVec Ideal S64 .f32) (x9 : FVec Ideal S64x16 .f32) (x10 : FVec Ideal S16 .f32) :
    FVec Ideal S50000x16 .f32 :=
  mlp2 (R := 50000) x0 (aggVal x1 ev)
    (extractStridedSlice S16x64 ![0, 0] x7 slices_S32x64_S16x64_0_0)
    (extractStridedSlice S16x64 ![16, 0] x7 slices_S32x64_S16x64_16_0)
    (shapeCast S1x64 x8 shapeCasts_S64_S1x64) x9 (shapeCast S1x16 x10 shapeCasts_S16_S1x16)

/-! ## The kernel program ends at them -/

section KernelSide
variable (m : (ℓ : Loc nD τ sig) → Buf (Elt Ideal) ℓ) (ρ : Dev nD → PrngReg)

/-- The first region's output array after the region, as a function of the launch memory. -/
theorem edge_array (c : Dev nD) :
    (dat0 (F := Ideal) (V4 m ρ) c).arrAt 9 cfg0.N
      = edgeVal (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [Cert.KernelIdeal.Edge.final0 (V4 m ρ) c, V4_v4 m ρ c, V4_v5 m ρ c, V4_arg2 m ρ c, V4_v6 m ρ c, V4_v7 m ρ c, V4_v8 m ρ c,
    V4_v9 m ρ c, V4_arg5 m ρ c, V4_v10 m ρ c]
  rfl

theorem kernel_edge (c : Dev nD) :
    W7 m ρ c (Proc.devRef .tc main_v11)
      = edgeVal (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) :=
  (W7_v11 m ρ c).trans (edge_array m ρ c)

theorem kernel_node (c : Dev nD) :
    W7 m ρ c (Proc.devRef .tc main_v19)
      = nodeVal (m ((c : Thread nD τ).loc main_arg0)) (m ((c : Thread nD τ).loc main_arg1))
          (edgeVal (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)))
          (m ((c : Thread nD τ).loc main_arg7)) (m ((c : Thread nD τ).loc main_arg8)) (m ((c : Thread nD τ).loc main_arg9))
          (m ((c : Thread nD τ).loc main_arg10)) := by
  rw [W7_v19 m ρ c, Cert.KernelIdeal.Node.final1 (V6 m ρ) c, V6_arg0 m ρ c, V6_v14 m ρ c, V6_v15 m ρ c, V6_v16 m ρ c, V6_v17 m ρ c,
    V6_arg9 m ρ c, V6_v18 m ρ c, edge_array m ρ c]
  rfl

end KernelSide

/-! ## The reference ends at them, when the edge list's entries are row numbers -/

section ReferenceSide

open Cert.ReferenceIdeal.Read

variable (x0 : FVec Ideal S50000x16 .f32) (x1 : IVec S2x1600000 32) (x2 : FVec Ideal S1600000x16 .f32)
  (x3 : FVec Ideal S48x64 .f32) (x4 : FVec Ideal S64 .f32) (x5 : FVec Ideal S64x16 .f32) (x6 : FVec Ideal S16 .f32)
  (x7 : FVec Ideal S32x64 .f32) (x8 : FVec Ideal S64 .f32) (x9 : FVec Ideal S64x16 .f32) (x10 : FVec Ideal S16 .f32)

/-- The reference's gathered destination rows: the same gather, at the same normalised index column. -/
theorem ref_gather_dst : val_main_v10 (F := Ideal) x0 x1
    = Host.gather gather_S50000x16_S1600000x1_S1600000x16_1_0_n_n_0_1_116 x0 (idxCol (normIdx (idxRow1 x1))) := rfl

/-- The reference's gathered source rows. -/
theorem ref_gather_src : val_main_v17 (F := Ideal) x0 x1
    = Host.gather gather_S50000x16_S1600000x1_S1600000x16_1_0_n_n_0_1_116 x0 (idxCol (normIdx (idxRow0 x1))) := rfl

/-- The reference's edge result is the kernel program's, the edge list in range. -/
theorem ref_edge (h1 : ∀ e : S1600000.Idx, 0 ≤ (idxRow1 x1 e).toInt ∧ (idxRow1 x1 e).toInt < 50000)
    (h0 : ∀ e : S1600000.Idx, 0 ≤ (idxRow0 x1 e).toInt ∧ (idxRow0 x1 e).toInt < 50000) :
    val_main_v27 (F := Ideal) x0 x1 x2 x3 x4 x5 x6 = edgeVal x0 x1 x2 x3 x4 x5 x6 := by
  rw [Cert.ReferenceIdeal.RefValue.edge_eq]
  unfold edgeVal
  rw [takeFill_eq_gather x0 (idxRow1 x1) h1, takeFill_eq_gather x0 (idxRow0 x1) h0, ← ref_gather_dst, ← ref_gather_src]
  exact dense1_concat3 (R := 1600000) (val_main_v10 (F := Ideal) x0 x1) (val_main_v17 (F := Ideal) x0 x1) x2 x3 x4 x5 x6 _
    slices_S48x64_S16x64_0_0 slices_S48x64_S16x64_16_0 slices_S48x64_S16x64_32_0 shapeCasts_S64_S1x64 shapeCasts_S16_S1x16

/-- The reference's aggregate is the kernel program's of the same edge result. -/
theorem ref_agg : val_main_v30 (F := Ideal) x0 x1 x2 x3 x4 x5 x6 = aggVal x1 (val_main_v27 (F := Ideal) x0 x1 x2 x3 x4 x5 x6) := rfl

/-- The reference's node result is the kernel program's, the edge list in range. -/
theorem ref_node (h1 : ∀ e : S1600000.Idx, 0 ≤ (idxRow1 x1 e).toInt ∧ (idxRow1 x1 e).toInt < 50000)
    (h0 : ∀ e : S1600000.Idx, 0 ≤ (idxRow0 x1 e).toInt ∧ (idxRow0 x1 e).toInt < 50000) :
    val_main_v40 (F := Ideal) x0 x1 x2 x3 x4 x5 x6 x7 x8 x9 x10
      = nodeVal x0 x1 (edgeVal x0 x1 x2 x3 x4 x5 x6) x7 x8 x9 x10 := by
  rw [Cert.ReferenceIdeal.RefValue.node_eq]
  unfold nodeVal
  rw [← ref_edge x0 x1 x2 x3 x4 x5 x6 h1 h0, ← ref_agg]
  exact dense1_concat2 (R := 50000) x0 (val_main_v30 (F := Ideal) x0 x1 x2 x3 x4 x5 x6) x7 x8 x9 x10 _
    slices_S32x64_S16x64_0_0 slices_S32x64_S16x64_16_0 shapeCasts_S64_S1x64 shapeCasts_S16_S1x16

end ReferenceSide

/-! ## The claims -/

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its generated run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both programs end with the node result nodeVal and the edge result edgeVal of the arguments: the kernel program by
    its two regions' values read through the host operations, the reference by its run read one operation at a time
    and the precondition's range of the edge list. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => nodeVal (m ((c : Thread nD τ).loc main_arg0)) (m ((c : Thread nD τ).loc main_arg1))
      (edgeVal (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)))
      (m ((c : Thread nD τ).loc main_arg7)) (m ((c : Thread nD τ).loc main_arg8)) (m ((c : Thread nD τ).loc main_arg9))
      (m ((c : Thread nD τ).loc main_arg10)),
    fun c => edgeVal (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)), ?_, ?_⟩
  · exact (θ_run Cert.KernelIdeal.defs _ _).mono
      (fun r h c => ⟨(h c).1.trans (kernel_node m ρ c), (h c).2.1.trans (kernel_edge m ρ c), (h c).2.2⟩)
      (Cert.KernelIdeal.GenRun.run_main m ρ)
  · refine (θ_run Cert.ReferenceIdeal.defs _ _).mono (fun r h c => ?_) (Cert.ReferenceIdeal.Value.run (F := Ideal) m' ρ')
    have hr := edgeList_range m hpre c
    have h1 := idxRow1_range _ hr
    have h0 := idxRow0_range _ hr
    obtain ⟨a0, a1, a2, a3, a4, a5, a6, a7, a8, a9, a10⟩ := hagree c
    refine ⟨(h c).1.trans ?_, (h c).2.1.trans ?_, (h c).2.2⟩
    · rw [Cert.ReferenceIdeal.Read.val_main_v40_eq, a0, a1, a2, a3, a4, a5, a6, a7, a8, a9, a10]
      exact ref_node _ _ _ _ _ _ _ _ _ _ _ h1 h0
    · rw [Cert.ReferenceIdeal.Read.val_main_v27_eq, a0, a1, a2, a3, a4, a5, a6]
      exact ref_edge _ _ _ _ _ _ _ h1 h0

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
